-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S128 .f32) (main_arg10 : FVec F S128x128 .f32) (main_arg11 : FVec F S128x128 .f32) (main_arg12 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S128x128 .f32) (main_arg7 : FVec F S128 .f32) (main_arg8 : FVec F S128 .f32) (main_arg9 : FVec F S128 .f32) (main_arg10 : FVec F S128x128 .f32) (main_arg11 : FVec F S128x128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S640000 32) (main_arg2 : IVec S640000 32) (main_arg3 : FVec F S128 .f32) (main_arg4 : FVec F S128 .f32) (main_arg5 : FVec F S128x128 .f32) (main_arg6 : FVec F S128x128 .f32) (main_arg7 : FVec F S128 .f32) (main_arg8 : FVec F S128 .f32) (main_arg9 : FVec F S128 .f32) (main_arg10 : FVec F S128x128 .f32) (main_arg11 : FVec F S128x128 .f32) (main_arg12 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S640000 : Shape := ⟨1, ![640000]⟩
abbrev S128 : Shape := ⟨1, ![128]⟩
abbrev S128x128 : Shape := ⟨2, ![128, 128]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩

abbrev nBuf : Space → Nat
  | .hbm => 72
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S100000x128, .f32⟩
  | .hbm, ⟨18, _⟩ => ⟨S100000x128, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .f32⟩
  | .hbm, ⟨29, _⟩ => ⟨S100000x128, .f32⟩
  | .hbm, ⟨30, _⟩ => ⟨S640000x1, .i32⟩
  | .hbm, ⟨31, _⟩ => ⟨S100000x128, .f32⟩
  | .hbm, ⟨32, _⟩ => ⟨S_, .f32⟩
  | .hbm, ⟨33, _⟩ => ⟨S640000, .f32⟩
  | .hbm, ⟨34, _⟩ => ⟨S_, .f32⟩
  | .hbm, ⟨35, _⟩ => ⟨S100000, .f32⟩
  | .hbm, ⟨36, _⟩ => ⟨S640000x1, .i32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S640000x1, .i32⟩
  | .hbm, ⟨52, _⟩ => ⟨S640000x128, .f32⟩
  | .hbm, ⟨53, _⟩ => ⟨S_, .f32⟩
  | .hbm, ⟨54, _⟩ => ⟨S100000x128, .f32⟩
  | .hbm, ⟨55, _⟩ => ⟨S640000x1, .i32⟩
  | .hbm, ⟨56, _⟩ => ⟨S100000x128, .f32⟩
  | .hbm, ⟨57, _⟩ => ⟨S_, .f32⟩
  | .hbm, ⟨58, _⟩ => ⟨S640000, .f32⟩
  | .hbm, ⟨59, _⟩ => ⟨S_, .f32⟩
  | .hbm, ⟨60, _⟩ => ⟨S100000, .f32⟩
  | .hbm, ⟨61, _⟩ => ⟨S640000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S1x128, .f32⟩
  | .hbm, ⟨71, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg11_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem11_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  reduces_S2000x128_S2000 : S2000x128.Reduces [1] S2000
  shapeCasts_S2000_S2000x1 : S2000.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S2000x128_S128x128_S2000x128_1_1_0_0_n_n_wf : DotDims.WF S2000x128 S128x128 S2000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S100000x128.size a
  hwx1_11 : ∀ i : grid1.Coords, EltTy.bits .f32 = 32 ∨ (Rect.block (s := S100000x128) S2000x128.size (cc1_transform_11 i) (hinb1_11 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_1) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg11) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v44) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v45) S2000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x128 : Shape := ⟨2, ![100000, 128]⟩
abbrev S640000 : Shape := ⟨1, ![640000]⟩
abbrev S128 : Shape := ⟨1, ![128]⟩
abbrev S128x128 : Shape := ⟨2, ![128, 128]⟩
abbrev S_ : Shape := ⟨0, ![]⟩
abbrev S100000 : Shape := ⟨1, ![100000]⟩
abbrev S100000x1 : Shape := ⟨2, ![100000, 1]⟩
abbrev S1x128 : Shape := ⟨2, ![1, 128]⟩
abbrev S640000x1 : Shape := ⟨2, ![640000, 1]⟩
abbrev S640000x128 : Shape := ⟨2, ![640000, 128]⟩

abbrev nBuf : Space → Nat
  | .hbm => 145
  | .vmem => 0
  | .smem => 0
  | _ => 0

abbrev hbmTy0_0 (i : Nat) : BufTy := match i % 128 with
  | 0 => ⟨S100000x128, .f32⟩
  | 1 => ⟨S640000, .i32⟩
  | 2 => ⟨S640000, .i32⟩
  | 3 => ⟨S128, .f32⟩
  | 4 => ⟨S128, .f32⟩
  | 5 => ⟨S128x128, .f32⟩
  | 6 => ⟨S128x128, .f32⟩
  | 7 => ⟨S128, .f32⟩
  | 8 => ⟨S128, .f32⟩
  | 9 => ⟨S128, .f32⟩
  | 10 => ⟨S128x128, .f32⟩
  | 11 => ⟨S128x128, .f32⟩
  | 12 => ⟨S128, .f32⟩
  | 13 => ⟨S_, .f32⟩
  | 14 => ⟨S100000, .f32⟩
  | 15 => ⟨S100000x1, .f32⟩
  | 16 => ⟨S_, .f32⟩
  | 17 => ⟨S100000x1, .f32⟩
  | 18 => ⟨S100000x1, .f32⟩
  | 19 => ⟨S100000x128, .f32⟩
  | 20 => ⟨S100000x128, .f32⟩
  | 21 => ⟨S100000x128, .f32⟩
  | 22 => ⟨S_, .f32⟩
  | 23 => ⟨S100000, .f32⟩
  | 24 => ⟨S100000x1, .f32⟩
  | 25 => ⟨S_, .f32⟩
  | 26 => ⟨S100000x1, .f32⟩
  | 27 => ⟨S100000x1, .f32⟩
  | 28 => ⟨S100000x128, .f32⟩
  | 29 => ⟨S100000x128, .f32⟩
  | 30 => ⟨S_, .f32⟩
  | 31 => ⟨S100000x1, .f32⟩
  | 32 => ⟨S100000x1, .f32⟩
  | 33 => ⟨S100000x1, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S_, .i32⟩
  | 43 => ⟨S640000, .i32⟩
  | 44 => ⟨S640000, .i1⟩
  | 45 => ⟨S_, .i32⟩
  | 46 => ⟨S640000, .i32⟩
  | 47 => ⟨S640000, .i32⟩
  | 48 => ⟨S640000, .i32⟩
  | 49 => ⟨S640000x1, .i32⟩
  | 50 => ⟨S640000x128, .f32⟩
  | 51 => ⟨S_, .f32⟩
  | 52 => ⟨S100000x128, .f32⟩
  | 53 => ⟨S640000x1, .i32⟩
  | 54 => ⟨S100000x128, .f32⟩
  | 55 => ⟨S_, .f32⟩
  | 56 => ⟨S640000, .f32⟩
  | 57 => ⟨S_, .f32⟩
  | 58 => ⟨S100000, .f32⟩
  | 59 => ⟨S640000x1, .i32⟩
  | 60 => ⟨S100000, .f32⟩
  | 61 => ⟨S_, .f32⟩
  | 62 => ⟨S100000, .f32⟩
  | 63 => ⟨S100000, .f32⟩
  | 64 => ⟨S100000x1, .f32⟩
  | 65 => ⟨S100000x128, .f32⟩
  | 66 => ⟨S100000x128, .f32⟩
  | 67 => ⟨S128x128, .f32⟩
  | 68 => ⟨S100000x128, .f32⟩
  | 69 => ⟨S128x128, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S_, .f32⟩
  | 79 => ⟨S100000, .f32⟩
  | 80 => ⟨S100000x1, .f32⟩
  | 81 => ⟨S_, .f32⟩
  | 82 => ⟨S100000x1, .f32⟩
  | 83 => ⟨S100000x1, .f32⟩
  | 84 => ⟨S100000x128, .f32⟩
  | 85 => ⟨S100000x128, .f32⟩
  | 86 => ⟨S100000x128, .f32⟩
  | 87 => ⟨S_, .f32⟩
  | 88 => ⟨S100000, .f32⟩
  | 89 => ⟨S100000x1, .f32⟩
  | 90 => ⟨S_, .f32⟩
  | 91 => ⟨S100000x1, .f32⟩
  | 92 => ⟨S100000x1, .f32⟩
  | 93 => ⟨S100000x128, .f32⟩
  | 94 => ⟨S100000x128, .f32⟩
  | 95 => ⟨S_, .f32⟩
  | 96 => ⟨S100000x1, .f32⟩
  | 97 => ⟨S100000x1, .f32⟩
  | 98 => ⟨S100000x1, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .i32⟩
  | 108 => ⟨S640000, .i32⟩
  | 109 => ⟨S640000, .i1⟩
  | 110 => ⟨S_, .i32⟩
  | 111 => ⟨S640000, .i32⟩
  | 112 => ⟨S640000, .i32⟩
  | 113 => ⟨S640000, .i32⟩
  | 114 => ⟨S640000x1, .i32⟩
  | 115 => ⟨S640000x128, .f32⟩
  | 116 => ⟨S_, .f32⟩
  | 117 => ⟨S100000x128, .f32⟩
  | 118 => ⟨S640000x1, .i32⟩
  | 119 => ⟨S100000x128, .f32⟩
  | 120 => ⟨S_, .f32⟩
  | 121 => ⟨S640000, .f32⟩
  | 122 => ⟨S_, .f32⟩
  | 123 => ⟨S100000, .f32⟩
  | 124 => ⟨S640000x1, .i32⟩
  | 125 => ⟨S100000, .f32⟩
  | 126 => ⟨S_, .f32⟩
  | 127 => ⟨S100000, .f32⟩
  | _ => ⟨S100000x128, .f32⟩

abbrev hbmTy0_1 (i : Nat) : BufTy := match i % 128 with
  | 0 => ⟨S100000, .f32⟩
  | 1 => ⟨S100000x1, .f32⟩
  | 2 => ⟨S100000x128, .f32⟩
  | 3 => ⟨S100000x128, .f32⟩
  | 4 => ⟨S128x128, .f32⟩
  | 5 => ⟨S100000x128, .f32⟩
  | 6 => ⟨S128x128, .f32⟩
  | 7 => ⟨S100000x128, .f32⟩
  | 8 => ⟨S100000x128, .f32⟩
  | 9 => ⟨S1x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S100000x128, .f32⟩
  | 16 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call0_cst : Ref sig .tc := ⟨.hbm, 75, rfl⟩
abbrev main_call0_v0 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_14 : Ref sig .tc := ⟨.hbm, 107, rfl⟩
abbrev main_v76 : Ref sig .tc := ⟨.hbm, 108, rfl⟩
abbrev main_v77 : Ref sig .tc := ⟨.hbm, 109, rfl⟩
abbrev main_c_15 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_16 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_17 : Ref sig .tc := ⟨.hbm, 120, rfl⟩
abbrev main_v86 : Ref sig .tc := ⟨.hbm, 121, rfl⟩
abbrev main_cst_18 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_19 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_call1_cst : Ref sig .tc := ⟨.hbm, 140, rfl⟩
abbrev main_call1_v0 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  transposes_S128x128_S128x128_1_0 : S128x128.Transposes [1, 0] S128x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Fold.lean ====
/-
  The buffer contents at the boundaries of @main's four segments, read at the references the two kernel regions use.
  Before the first region only four reshapes [128] -> [1,128] have run. Between the regions the host forms, twice, the
  neighbourhood mean of a normalised array: negative indices wrapped, rows gathered, scatter-added by destination,
  divided by the in-degree clamped below at 1; that chain is named once (`neighMean`) and never opened, since the
  reference applies the same chain. No host operation and no region writes an argument array.
-/
import proofs.«119950_j31138512896530_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable {F : FTy → Type} [FloatOps F]

/-- The neighbourhood mean as ONE function of a node array `h`, the index vector `gi` rows are gathered by and the index
    vector `si` they are scatter-added by: the host operations between the two regions, in their order. -/
def neighMean (h : FVec F S100000x128 .f32) (gi si : IVec S640000 32) : FVec F S100000x128 .f32 :=
  Host.divf
    (Host.scatterAdd scatter_S100000x128_S640000x1_S640000x128_1_0_0_1
      (broadcastInDim S100000x128 ![] bcast_S_S100000x128 (constant S_ .f32 0x00000000#32))
      (broadcastInDim S640000x1 ![0] bcast_S640000_S640000x1_0 si)
      (Host.gather gather_S100000x128_S640000x1_S640000x128_1_0_n_n_0_1_1128 h
        (broadcastInDim S640000x1 ![0] bcast_S640000_S640000x1_0
          (select (cmpi .slt gi (broadcastInDim S640000 ![] bcast_S_S640000 (constantI S_ 32 0#32)))
            (addi gi (broadcastInDim S640000 ![] bcast_S_S640000 (constantI S_ 32 100000#32))) gi))))
    (broadcastInDim S100000x128 ![0, 1] bcast_S100000x1_S100000x128_0_1
      (broadcastInDim S100000x1 ![0] bcast_S100000_S100000x1_0
        (maximumf
          (Host.scatterAdd scatter_S100000_S640000x1_S640000_n_0_0_1
            (broadcastInDim S100000 ![] bcast_S_S100000 (constant S_ .f32 0x00000000#32))
            (broadcastInDim S640000x1 ![0] bcast_S640000_S640000x1_0 si)
            (broadcastInDim S640000 ![] bcast_S_S640000 (constant S_ .f32 0x3F800000#32)))
          (broadcastInDim S100000 ![] bcast_S_S100000 (constant S_ .f32 0x3F800000#32)))))

variable (m : (ℓ : Loc nD τ sig) → Buf (Elt F) ℓ) (ρ : Dev nD → PrngReg)

/-! ## Entering the first region: the launch contents after four reshapes -/

theorem entry0_x (c : Dev nD) : V1 m ρ c main_arg0 = m ((c : Thread nD τ).loc main_arg0) := by
  show StableHlo.after hostOps0 (W0 m ρ c) (Proc.devRef .tc main_arg0) = _
  after_results

theorem entry0_scale (c : Dev nD) :
    V1 m ρ c main_v0 = shapeCast S1x128 (m ((c : Thread nD τ).loc main_arg3)) shapeCasts_S128_S1x128 := by
  show StableHlo.after hostOps0 (W0 m ρ c) (Proc.devRef .tc main_v0) = _
  after_results; rfl

theorem entry0_shift (c : Dev nD) :
    V1 m ρ c main_v1 = shapeCast S1x128 (m ((c : Thread nD τ).loc main_arg4)) shapeCasts_S128_S1x128 := by
  show StableHlo.after hostOps0 (W0 m ρ c) (Proc.devRef .tc main_v1) = _
  after_results; rfl

theorem entry0_scale_r (c : Dev nD) :
    V1 m ρ c main_v2 = shapeCast S1x128 (m ((c : Thread nD τ).loc main_arg8)) shapeCasts_S128_S1x128 := by
  show StableHlo.after hostOps0 (W0 m ρ c) (Proc.devRef .tc main_v2) = _
  after_results; rfl

theorem entry0_shift_r (c : Dev nD) :
    V1 m ρ c main_v3 = shapeCast S1x128 (m ((c : Thread nD τ).loc main_arg9)) shapeCasts_S128_S1x128 := by
  show StableHlo.after hostOps0 (W0 m ρ c) (Proc.devRef .tc main_v3) = _
  after_results; rfl

/-! ## Leaving the first region: its two outputs at what the write-backs leave, everything else as entered -/

theorem exit0_hfwd (c : Dev nD) : W2 m ρ c (Proc.devRef .tc main_v4_0) = (dat0 (V1 m ρ) c).arrAt 5 cfg0.N := W2_arr m ρ c 5
theorem exit0_hrev (c : Dev nD) : W2 m ρ c (Proc.devRef .tc main_v4_1) = (dat0 (V1 m ρ) c).arrAt 6 cfg0.N := W2_arr m ρ c 6

theorem exit0_x (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (entry0_x m ρ c)

private theorem entry0_keep (c : Dev nD) (r : Ref sig .tc) (h : r ≠ main_v0 ∧ r ≠ main_v1 ∧ r ≠ main_v2 ∧ r ≠ main_v3) :
    W1 m ρ c (Proc.devRef .tc r) = m ((c : Thread nD τ).loc r) := by
  show StableHlo.after hostOps0 (W0 m ρ c) (Proc.devRef .tc r) = _
  refine StableHlo.after_of_forall_not_mem (b := Proc.devRef .tc r) _ _ (List.forall_iff_forall_mem.mp ?_)
  simp only [hostOps0, List.Forall, StableHlo.reshape_writes, Finset.mem_singleton]
  exact ⟨StableHlo.devRef_ne_of_ne h.1, StableHlo.devRef_ne_of_ne h.2.1, StableHlo.devRef_ne_of_ne h.2.2.1, StableHlo.devRef_ne_of_ne h.2.2.2⟩

theorem exit0_src (c : Dev nD) : W2 m ρ c (Proc.devRef .tc main_arg1) = m ((c : Thread nD τ).loc main_arg1) :=
  (W2_of_ne m ρ c main_arg1 (by decide)).trans (entry0_keep m ρ c main_arg1 (by decide))
theorem exit0_dst (c : Dev nD) : W2 m ρ c (Proc.devRef .tc main_arg2) = m ((c : Thread nD τ).loc main_arg2) :=
  (W2_of_ne m ρ c main_arg2 (by decide)).trans (entry0_keep m ρ c main_arg2 (by decide))
theorem exit0_wself (c : Dev nD) : W2 m ρ c (Proc.devRef .tc main_arg5) = m ((c : Thread nD τ).loc main_arg5) :=
  (W2_of_ne m ρ c main_arg5 (by decide)).trans (entry0_keep m ρ c main_arg5 (by decide))
theorem exit0_wneigh (c : Dev nD) : W2 m ρ c (Proc.devRef .tc main_arg6) = m ((c : Thread nD τ).loc main_arg6) :=
  (W2_of_ne m ρ c main_arg6 (by decide)).trans (entry0_keep m ρ c main_arg6 (by decide))
theorem exit0_bias (c : Dev nD) : W2 m ρ c (Proc.devRef .tc main_arg7) = m ((c : Thread nD τ).loc main_arg7) :=
  (W2_of_ne m ρ c main_arg7 (by decide)).trans (entry0_keep m ρ c main_arg7 (by decide))
theorem exit0_wself_r (c : Dev nD) : W2 m ρ c (Proc.devRef .tc main_arg10) = m ((c : Thread nD τ).loc main_arg10) :=
  (W2_of_ne m ρ c main_arg10 (by decide)).trans (entry0_keep m ρ c main_arg10 (by decide))
theorem exit0_wneigh_r (c : Dev nD) : W2 m ρ c (Proc.devRef .tc main_arg11) = m ((c : Thread nD τ).loc main_arg11) :=
  (W2_of_ne m ρ c main_arg11 (by decide)).trans (entry0_keep m ρ c main_arg11 (by decide))
theorem exit0_bias_r (c : Dev nD) : W2 m ρ c (Proc.devRef .tc main_arg12) = m ((c : Thread nD τ).loc main_arg12) :=
  (W2_of_ne m ρ c main_arg12 (by decide)).trans (entry0_keep m ρ c main_arg12 (by decide))

/-! ## Entering the second region -/

theorem mid_hfwd (c : Dev nD) : V3 m ρ c main_v4_0 = (dat0 (V1 m ρ) c).arrAt 5 cfg0.N :=
  calc W3 m ρ c (Proc.devRef .tc main_v4_0)
    _ = W2 m ρ c (Proc.devRef .tc main_v4_0) := StableHlo.after_of_forall_not_mem (b := Proc.devRef .tc main_v4_0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = _ := exit0_hfwd m ρ c

theorem mid_hrev (c : Dev nD) : V3 m ρ c main_v4_1 = (dat0 (V1 m ρ) c).arrAt 6 cfg0.N :=
  calc W3 m ρ c (Proc.devRef .tc main_v4_1)
    _ = W2 m ρ c (Proc.devRef .tc main_v4_1) := StableHlo.after_of_forall_not_mem (b := Proc.devRef .tc main_v4_1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = _ := exit0_hrev m ρ c

theorem mid_x (c : Dev nD) : V3 m ρ c main_arg0 = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg0) := exit0_x m ρ c

theorem mid_wself (c : Dev nD) : V3 m ρ c main_arg5 = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg5) := exit0_wself m ρ c

theorem mid_wneigh (c : Dev nD) : V3 m ρ c main_arg6 = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg6) := exit0_wneigh m ρ c

theorem mid_wself_r (c : Dev nD) : V3 m ρ c main_arg10 = m ((c : Thread nD τ).loc main_arg10) :=
  calc W3 m ρ c (Proc.devRef .tc main_arg10)
    _ = W2 m ρ c (Proc.devRef .tc main_arg10) := StableHlo.after_of_forall_not_mem (b := Proc.devRef .tc main_arg10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg10) := exit0_wself_r m ρ c

theorem mid_wneigh_r (c : Dev nD) : V3 m ρ c main_arg11 = m ((c : Thread nD τ).loc main_arg11) :=
  calc W3 m ρ c (Proc.devRef .tc main_arg11)
    _ = W2 m ρ c (Proc.devRef .tc main_arg11) := StableHlo.after_of_forall_not_mem (b := Proc.devRef .tc main_arg11) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg11) := exit0_wneigh_r m ρ c

theorem mid_neigh_fwd (c : Dev nD) :
    V3 m ρ c main_v23
      = neighMean (W2 m ρ c (Proc.devRef .tc main_v4_0)) (W2 m ρ c (Proc.devRef .tc main_arg1)) (W2 m ρ c (Proc.devRef .tc main_arg2)) := by
  show StableHlo.after hostOps1 (W2 m ρ c) (Proc.devRef .tc main_v23) = _
  after_results_simp
  rfl

theorem mid_neigh_rev (c : Dev nD) :
    V3 m ρ c main_v42
      = neighMean (W2 m ρ c (Proc.devRef .tc main_v4_1)) (W2 m ρ c (Proc.devRef .tc main_arg2)) (W2 m ρ c (Proc.devRef .tc main_arg1)) := by
  show StableHlo.after hostOps1 (W2 m ρ c) (Proc.devRef .tc main_v42) = _
  after_results_simp
  rfl

theorem mid_bias (c : Dev nD) :
    V3 m ρ c main_v43 = shapeCast S1x128 (W2 m ρ c (Proc.devRef .tc main_arg7)) shapeCasts_S128_S1x128 := by
  show StableHlo.after hostOps1 (W2 m ρ c) (Proc.devRef .tc main_v43) = _
  after_results_simp
  rfl

theorem mid_bias_r (c : Dev nD) :
    V3 m ρ c main_v44 = shapeCast S1x128 (W2 m ρ c (Proc.devRef .tc main_arg12)) shapeCasts_S128_S1x128 := by
  show StableHlo.after hostOps1 (W2 m ρ c) (Proc.devRef .tc main_v44) = _
  after_results_simp
  rfl

/-- A [128] vector reshaped to [1,128], read at (0, q), is the vector at q. -/
theorem reshape_row_apply {α : Type} (v : S128.Idx → α) (q : Fin 128) :
    shapeCast S1x128 v shapeCasts_S128_S1x128 (ix2 0 q) = v (ix1 q) := by
  refine (shapeCast_addUnit_apply (n := 1) ![128] v shapeCasts_S128_S1x128 (ix2 0 q)).trans ?_
  exact congrArg v (funext fun a => by match a with | ⟨0, _⟩ => rfl)

end Cert.KernelIdeal.Fold

end
-- ==== Proof.Spec.lean ====
/-
  What both programs compute, as functions on the extended reals, entry by entry.

  A node array has 100000 rows of 128 lanes. Row-wise normalisation: with the row's mean mu = (sum_k row k) / 128
  and variance v = (sum_k (row k - mu)^2) / 128, lane q of the normalised row is
  ((row q - mu) * rsqrt (v + eps)) * g q + b q. A linear layer with rectifier at (r, q):
  max ((sum_k h r k * Ws q k + sum_k n r k * Wn q k) + b q) 0, the weight read by (output lane, input lane).
  The result at (r, q) is (x r q + forward layer) + reverse layer.
  Nothing here needs an entry to be finite: only sums, products and max of extended reals are formed.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A node array: 100000 rows of 128 lanes. -/
abbrev Nodes : Type := (⟨2, ![100000, 128]⟩ : Shape).Idx → EReal
/-- One row, or one per-lane parameter vector. -/
abbrev Lane : Type := Fin 128 → EReal
/-- A weight matrix read by (output lane, input lane). -/
abbrev Mat : Type := Fin 128 → Fin 128 → EReal

/-- The lane count 128, the variance offset 1e-5 (as its binary value) and zero, as the programs spell them. -/
def lanes : EReal := Ideal.ofBits .f32 0x43000000#32
def varEps : EReal := Ideal.ofBits .f32 0x3727C5AC#32
def zero : EReal := Ideal.ofBits .f32 0x00000000#32

/-- A row's mean. -/
def rowMean (row : Lane) : EReal := Ideal.div (∑ k : Fin 128, row k) lanes
/-- A row's variance about its mean. -/
def rowVar (row : Lane) : EReal := Ideal.div (∑ k : Fin 128, (row k - rowMean row) * (row k - rowMean row)) lanes
/-- Lane `q` of the normalised row, scaled by `g` and shifted by `b`. -/
def lnRow (row : Lane) (g b : EReal) (q : Fin 128) : EReal :=
  ((row q - rowMean row) * Ideal.rsqrt (rowVar row + varEps)) * g + b

/-- Row-wise normalisation of a node array at row `r`, lane `q`. -/
def layerNormAt (x : Nodes) (g b : Lane) (r : Fin 100000) (q : Fin 128) : EReal :=
  lnRow (fun k => x (ix2 r k)) (g q) (b q) q
/-- Row-wise normalisation of a node array. -/
def layerNorm (x : Nodes) (g b : Lane) : Nodes := fun i => layerNormAt x g b (i 0) (i 1)

theorem layerNorm_ix2 (x : Nodes) (g b : Lane) (r : Fin 100000) (q : Fin 128) :
    layerNorm x g b (ix2 r q) = layerNormAt x g b r q := rfl

/-- One output lane of a linear layer with rectifier: the node's own row `h` against `ws`, its neighbourhood row `n`
    against `wn`, the bias added last, then the maximum with zero. -/
def sage (h n ws wn : Lane) (b : EReal) : EReal :=
  max (((∑ k : Fin 128, h k * ws k) + ∑ k : Fin 128, n k * wn k) + b) zero

/-- The result at row `r`, lane `q`: the input plus the forward layer, plus the reverse layer. -/
def outAt (x hf nf hr nr : Nodes) (Ws Wn Wsr Wnr : Mat) (b br : Lane) (r : Fin 100000) (q : Fin 128) : EReal :=
  (x (ix2 r q) + sage (fun k => hf (ix2 r k)) (fun k => nf (ix2 r k)) (Ws q) (Wn q) (b q))
    + sage (fun k => hr (ix2 r k)) (fun k => nr (ix2 r k)) (Wsr q) (Wnr q) (br q)
/-- The result array. -/
def out (x hf nf hr nr : Nodes) (Ws Wn Wsr Wnr : Mat) (b br : Lane) : Nodes :=
  fun i => outAt x hf nf hr nr Ws Wn Wsr Wnr b br (i 0) (i 1)

theorem out_ix2 (x hf nf hr nr : Nodes) (Ws Wn Wsr Wnr : Mat) (b br : Lane) (r : Fin 100000) (q : Fin 128) :
    out x hf nf hr nr Ws Wn Wsr Wnr b br (ix2 r q) = outAt x hf nf hr nr Ws Wn Wsr Wnr b br r q := rfl

/-- The other grouping of the last two additions gives the same extended real. -/
theorem outAt_assoc (x hf nf hr nr : Nodes) (Ws Wn Wsr Wnr : Mat) (b br : Lane) (r : Fin 100000) (q : Fin 128) :
    x (ix2 r q) + (sage (fun k => hf (ix2 r k)) (fun k => nf (ix2 r k)) (Ws q) (Wn q) (b q)
      + sage (fun k => hr (ix2 r k)) (fun k => nr (ix2 r k)) (Wsr q) (Wnr q) (br q))
    = outAt x hf nf hr nr Ws Wn Wsr Wnr b br r q := by
  unfold outAt
  exact (add_assoc _ _ _).symm

end Cert.Spec

end
-- ==== Proof.Region0.lean ====
/-
  The first kernel region: what its two output arrays hold when the region ends, for any contents `V` the region is
  entered with. Each grid point t normalises rows 2000 t … 2000 t + 1999 of the input; a row lies whole inside one block,
  so block t of the output is block t of the row-wise normalisation of the whole input array, and the 50 blocks tile it.
-/
import proofs.«119950_j31138512896530_1_alg».proof.Proof.Gen.KernelIdeal.Frame
import proofs.«119950_j31138512896530_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Norm

open Cert.KernelIdeal Cert.KernelIdeal.Gen Idealize.ShloMosaic Idealize.ShloMosaic.TcCoe Idealize.SL.Sem
open Idealize.ShloMosaic.Pipeline (Dat)
open Idealize.ShloMosaic.ValueIdx

/-! ## Layout operations of the body, read at an index -/

/-- A column [2000, 1] spread over the 128 lanes reads its row's entry. -/
theorem spreadCol_apply (v : S2000x1.Idx → EReal) (p : Fin 2000) (q : Fin 128) :
    broadcastTo S2000x128 v broadcasts_S2000x1_S2000x128 (ix2 p q) = v (ix2 p 0) :=
  broadcastTo_apply v broadcasts_S2000x1_S2000x128 (ix2 p q) (ix2 p 0) (fun a => by
    match a with
    | ⟨0, _⟩ => rfl
    | ⟨1, _⟩ => rfl)

/-- A per-lane row [1, 128] spread over the 2000 rows reads its lane's entry. -/
theorem spreadRow_apply (v : S1x128.Idx → EReal) (p : Fin 2000) (q : Fin 128) :
    broadcastTo S2000x128 v broadcasts_S1x128_S2000x128 (ix2 p q) = v (ix2 0 q) :=
  broadcastTo_apply v broadcasts_S1x128_S2000x128 (ix2 p q) (ix2 0 q) (fun a => by
    match a with
    | ⟨0, _⟩ => rfl
    | ⟨1, _⟩ => rfl)

/-- A vector of 2000 row values seen as a column [2000, 1] keeps each row's value. -/
theorem asCol_apply (v : S2000.Idx → EReal) (p : Fin 2000) :
    shapeCast S2000x1 v shapeCasts_S2000_S2000x1 (ix2 p 0) = v (ix1 p) :=
  shapeCast_apply v shapeCasts_S2000_S2000x1 (ix2 p 0) (ix1 p) (by
    rw [Shape.rowMajor_val_one, Shape.rowMajor_val_two]
    show p.val = p.val * 1 + 0
    omega)

/-- The sum over the lanes of a block, at row `p`. -/
theorem laneSum_apply (x : FVec Ideal S2000x128 .f32) (hφ : FTy.f32 = FTy.f32 ∨ FTy.f32 = FTy.bf16)
    (hacc : (0x00000000#32 : BitVec 32) = 0x00000000#32) (p : Fin 2000) :
    multiReduction (F := Ideal) .add [1] S2000 x 0x00000000#32 reduces_S2000x128_S2000 hφ hacc (ix1 p)
      = ∑ k : Fin 128, x (ix2 p k) := by
  refine (Ideal.multiReduction_add_single x 0x00000000#32 reduces_S2000x128_S2000 hφ hacc (ix1 p)).trans ?_
  refine Finset.sum_congr rfl fun k _ => congrArg x ?_
  funext c
  match c with
  | ⟨0, _⟩ => rfl
  | ⟨1, _⟩ => rfl

/-- The reciprocal square root of a vector reads entry by entry. -/
theorem rsqrt_apply {s : Shape} {φ : FTy} (a : FVec Ideal s φ) (i : s.Idx) : rsqrt a i = Ideal.rsqrt (a i) := rfl

/-! ## The body's stored values, entry by entry -/

/-- The normalised block at row `p`, lane `q`: the row's entry less the row's mean, times the reciprocal square root
    of the row's variance plus the offset. -/
theorem normalised_apply (x : Vec Ideal S2000x128 .f32) (p : Fin 2000) (q : Fin 128) :
    k0_pay1 (F := Ideal) x (ix2 p q)
      = (x (ix2 p q) - Spec.rowMean (fun k => x (ix2 p k)))
          * Ideal.rsqrt (Spec.rowVar (fun k => x (ix2 p k)) + Spec.varEps) := by
  unfold k0_pay1
  simp only [mulf_apply, subf_apply, addf_apply, divf_apply, rsqrt_apply, spreadCol_apply, asCol_apply, broadcast_apply]
  rw [laneSum_apply, laneSum_apply]
  simp only [mulf_apply, subf_apply, divf_apply, spreadCol_apply, asCol_apply, broadcast_apply]
  rw [laneSum_apply]
  rfl

/-- The forward-direction stored value: the normalised entry scaled by the lane's gain and shifted by the lane's bias. -/
theorem fwdStored_apply (x : Vec Ideal S2000x128 .f32) (g b : Vec Ideal S1x128 .f32) (p : Fin 2000) (q : Fin 128) :
    k0_pay2 (F := Ideal) x g b (ix2 p q)
      = Spec.lnRow (fun k => x (ix2 p k)) (g (ix2 0 q)) (b (ix2 0 q)) q := by
  unfold k0_pay2
  simp only [addf_apply, mulf_apply, spreadRow_apply, shapeCast_self, normalised_apply]
  rfl

/-- The reverse-direction stored value: the same normalised entry under the other gain and bias. -/
theorem revStored_apply (x : Vec Ideal S2000x128 .f32) (g b : Vec Ideal S1x128 .f32) (p : Fin 2000) (q : Fin 128) :
    k0_pay3 (F := Ideal) x g b (ix2 p q)
      = Spec.lnRow (fun k => x (ix2 p k)) (g (ix2 0 q)) (b (ix2 0 q)) q := by
  unfold k0_pay3
  simp only [addf_apply, mulf_apply, spreadRow_apply, shapeCast_self, normalised_apply]
  rfl

/-! ## From the blocks to the arrays -/

variable (V : (c : Dev nD) → (b : Ref sig .tc) → Buf (Elt Ideal) ((c : Thread nD τ).loc b))

/-- The zero offsets of a whole-buffer access, as a constant function. -/
theorem zeroOffsets : (![0, 0] : Fin 2 → Nat) = fun _ => 0 := funext fun a => by fin_cases a <;> rfl

/-- Two functions on a [2000, 128] block agree when they agree at every (row, lane). -/
theorem block_ext {α : Type} {f g : S2000x128.Idx → α} (h : ∀ (p : Fin 2000) (q : Fin 128), f (ix2 p q) = g (ix2 p q)) :
    f = g :=
  funext fun j => by rw [eq_ix2 j]; exact h _ _

/-- The block indices, decided once over the 50 grid points: the node array's and both results' block at point `t`
    is block `t` of the rows, and each per-lane parameter is its one block at every point. -/
theorem blockIndex_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The node array's block at point `t` holds rows `2000 t … 2000 t + 1999` of the array. -/
theorem nodeBlock_apply (c : Dev nD) (t : Fin cfg0.N) (y : S2000x128.Idx) (i : S100000x128.Idx)
    (h0 : (i 0).val = 2000 * t.val + (y 0).val) (h1 : (i 1).val = (y 1).val) :
    (iblk0 V c 0 t : Vec Ideal S2000x128 .f32) y = (V c main_arg0 : S100000x128.Idx → EReal) i := by
  obtain ⟨e0, e1, -⟩ := blockIndex_facts t
  unfold iblk0
  rw [View.read_apply]
  show V c main_arg0 _ = V c main_arg0 _
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- A per-lane parameter's block (windows 1 to 4) holds the parameter itself, at every point. -/
theorem paramBlock_apply (c : Dev nD) (t : Fin cfg0.N) (q : Fin 128) :
    (iblk0 V c 1 t : Vec Ideal S1x128 .f32) (ix2 0 q) = (V c main_v0 : S1x128.Idx → EReal) (ix2 0 q)
    ∧ (iblk0 V c 2 t : Vec Ideal S1x128 .f32) (ix2 0 q) = (V c main_v1 : S1x128.Idx → EReal) (ix2 0 q)
    ∧ (iblk0 V c 3 t : Vec Ideal S1x128 .f32) (ix2 0 q) = (V c main_v2 : S1x128.Idx → EReal) (ix2 0 q)
    ∧ (iblk0 V c 4 t : Vec Ideal S1x128 .f32) (ix2 0 q) = (V c main_v3 : S1x128.Idx → EReal) (ix2 0 q) := by
  obtain ⟨-, -, e10, e11, e20, e21, e30, e31, e40, e41, -⟩ := blockIndex_facts t
  refine ⟨?_, ?_, ?_, ?_⟩
  · unfold iblk0
    rw [View.read_apply]
    show V c main_v0 _ = V c main_v0 _
    congr 1
    funext a
    apply Fin.ext
    match a with
    | ⟨0, _⟩ => show win0_1.index t (0 : Fin 2) * 1 + 1 * 0 = 0; rw [e10]
    | ⟨1, _⟩ => show win0_1.index t (1 : Fin 2) * 128 + 1 * q.val = q.val; rw [e11]; omega
  · unfold iblk0
    rw [View.read_apply]
    show V c main_v1 _ = V c main_v1 _
    congr 1
    funext a
    apply Fin.ext
    match a with
    | ⟨0, _⟩ => show win0_2.index t (0 : Fin 2) * 1 + 1 * 0 = 0; rw [e20]
    | ⟨1, _⟩ => show win0_2.index t (1 : Fin 2) * 128 + 1 * q.val = q.val; rw [e21]; omega
  · unfold iblk0
    rw [View.read_apply]
    show V c main_v2 _ = V c main_v2 _
    congr 1
    funext a
    apply Fin.ext
    match a with
    | ⟨0, _⟩ => show win0_3.index t (0 : Fin 2) * 1 + 1 * 0 = 0; rw [e30]
    | ⟨1, _⟩ => show win0_3.index t (1 : Fin 2) * 128 + 1 * q.val = q.val; rw [e31]; omega
  · unfold iblk0
    rw [View.read_apply]
    show V c main_v3 _ = V c main_v3 _
    congr 1
    funext a
    apply Fin.ext
    match a with
    | ⟨0, _⟩ => show win0_4.index t (0 : Fin 2) * 1 + 1 * 0 = 0; rw [e40]
    | ⟨1, _⟩ => show win0_4.index t (1 : Fin 2) * 128 + 1 * q.val = q.val; rw [e41]; omega

/-- Row `p` of block `t` is row `2000 t + p` of the array, which is below 100000. -/
theorem row_lt (t : Fin cfg0.N) (p : Fin 2000) : 2000 * t.val + p.val < 100000 := by
  have ht : t.val < 50 := lt_of_lt_of_eq t.isLt N_0
  have hp := p.isLt
  omega

/-- One stored entry against the row-wise normalisation of the whole array: over any block contents that are rows
    `2000 T …` of the array `X` and per-lane parameters `g`, `b`, the normalised, scaled and shifted entry at
    (row `p`, lane `q`) is the array's normalisation at (row `2000 T + p`, lane `q`). -/
theorem stored_eq_layerNorm (X : Spec.Nodes) (g b : S1x128.Idx → EReal) (x0 : Vec Ideal S2000x128 .f32) (r : Fin 100000)
    (p : Fin 2000) (q : Fin 128) (gq bq : EReal)
    (hx : ∀ k : Fin 128, x0 (ix2 p k) = X (ix2 r k)) (hg : gq = g (ix2 0 q)) (hb : bq = b (ix2 0 q)) :
    Spec.lnRow (fun k => x0 (ix2 p k)) gq bq q
      = Spec.layerNorm X (fun q => g (ix2 0 q)) (fun q => b (ix2 0 q)) (ix2 r q) := by
  rw [Spec.layerNorm_ix2]
  unfold Spec.layerNormAt
  rw [funext hx, hg, hb]

/-- An index of the result array is in point `t`'s block iff each coordinate is in the block's range on its axis. -/
theorem mem_fwdBlock (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v4_0).slice (win0_5.rect t)).set ↔ _
  rw [View.set_slice_whole, Rect.mem_set_unit]
  exact Iff.rfl

/-- Every row of the result array lies in the block of the point `row / 2000`. -/
theorem fwdCover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨-, -, -, -, -, -, -, -, -, -, e0, e1, -⟩ := blockIndex_facts t
  have ht : t.val = (i 0).val / 2000 := rfl
  refine ⟨t, flush0_5 t, ?_⟩
  rw [mem_fwdBlock]
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 128 ≤ (i 1).val ∧ (i 1).val < win0_5.index t (1 : Fin 2) * 128 + 128; rw [e1]; omega

/-- What point `t` writes back to the forward result is block `t` of the row-wise normalisation of the whole array. -/
theorem fwdFlushed_eq (c : Dev nD) (t : Fin cfg0.N) :
    (dat0 (F := Ideal) V c).flushed 5 t
      = ((cfg0.win 5).blk t).view.read (Elt Ideal)
          (Spec.layerNorm (V c main_arg0) (fun q => (V c main_v0 : S1x128.Idx → EReal) (ix2 0 q))
            (fun q => (V c main_v1 : S1x128.Idx → EReal) (ix2 0 q))) := by
  show (cfg0.win 5).cut (grid0.coords t) ((dat0 V c).after 5 t) = _
  rw [after0_5]
  unfold out0_5
  rw [View.canon_unit_zero zeroOffsets]
  simp only [View.ld_unit_zero (S := S2000x128) zeroOffsets, View.ld_unit_zero (S := S1x128) zeroOffsets]
  obtain ⟨-, -, -, -, -, -, -, -, -, -, e0, e1, -⟩ := blockIndex_facts t
  refine block_ext fun p q => ?_
  show k0_pay2 (F := Ideal) (iblk0 V c 0 t) (iblk0 V c 1 t) (iblk0 V c 2 t) (ix2 p q)
    = Spec.layerNorm (V c main_arg0) (fun q => (V c main_v0 : S1x128.Idx → EReal) (ix2 0 q))
        (fun q => (V c main_v1 : S1x128.Idx → EReal) (ix2 0 q)) (((cfg0.win 5).blk t).view.emb (ix2 p q))
  have hemb : ((cfg0.win 5).blk t).view.emb (ix2 p q) = (ix2 ⟨2000 * t.val + p.val, row_lt t p⟩ q : S100000x128.Idx) := by
    funext a
    apply Fin.ext
    match a with
    | ⟨0, _⟩ => show win0_5.index t (0 : Fin 2) * 2000 + 1 * p.val = 2000 * t.val + p.val; rw [e0]; omega
    | ⟨1, _⟩ => show win0_5.index t (1 : Fin 2) * 128 + 1 * q.val = q.val; rw [e1]; omega
  rw [hemb]
  refine (fwdStored_apply _ _ _ p q).trans ?_
  exact stored_eq_layerNorm (V c main_arg0) (V c main_v0) (V c main_v1) (iblk0 V c 0 t) ⟨2000 * t.val + p.val, row_lt t p⟩ p q _ _
    (fun k => nodeBlock_apply V c t (ix2 p k) (ix2 ⟨2000 * t.val + p.val, row_lt t p⟩ k) rfl rfl)
    (paramBlock_apply V c t q).1 (paramBlock_apply V c t q).2.1

/-- The forward-direction normalised array (output window 5). -/
theorem hfwd_array (c : Dev nD) :
    (dat0 (F := Ideal) V c).arrAt 5 cfg0.N
      = Spec.layerNorm (V c main_arg0) (fun q => (V c main_v0 : S1x128.Idx → EReal) (ix2 0 q))
          (fun q => (V c main_v1 : S1x128.Idx → EReal) (ix2 0 q)) :=
  (dat0 (F := Ideal) V c).arrAt_eq_of_cover 5 _ (fun t _ => fwdFlushed_eq V c t) fwdCover

/-- An index of the reverse result array is in point `t`'s block iff each coordinate is in the block's range on its axis. -/
theorem mem_revBlock (t : Fin cfg0.N) (i : S100000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v4_1).slice (win0_6.rect t)).set ↔ _
  rw [View.set_slice_whole, Rect.mem_set_unit]
  exact Iff.rfl

/-- Every row of the reverse result array lies in the block of the point `row / 2000`. -/
theorem revCover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨-, -, -, -, -, -, -, -, -, -, -, -, e0, e1⟩ := blockIndex_facts t
  have ht : t.val = (i 0).val / 2000 := rfl
  refine ⟨t, flush0_6 t, ?_⟩
  rw [mem_revBlock]
  intro a
  match a with
  | ⟨0, _⟩ => show win0_6.index t (0 : Fin 2) * 2000 ≤ (i 0).val ∧ (i 0).val < win0_6.index t (0 : Fin 2) * 2000 + 2000; rw [e0, ht]; omega
  | ⟨1, _⟩ => show win0_6.index t (1 : Fin 2) * 128 ≤ (i 1).val ∧ (i 1).val < win0_6.index t (1 : Fin 2) * 128 + 128; rw [e1]; omega

/-- What point `t` writes back to the reverse result is block `t` of the row-wise normalisation of the whole array
    under the reverse direction's gain and bias. -/
theorem revFlushed_eq (c : Dev nD) (t : Fin cfg0.N) :
    (dat0 (F := Ideal) V c).flushed 6 t
      = ((cfg0.win 6).blk t).view.read (Elt Ideal)
          (Spec.layerNorm (V c main_arg0) (fun q => (V c main_v2 : S1x128.Idx → EReal) (ix2 0 q))
            (fun q => (V c main_v3 : S1x128.Idx → EReal) (ix2 0 q))) := by
  show (cfg0.win 6).cut (grid0.coords t) ((dat0 V c).after 6 t) = _
  rw [after0_6]
  unfold out0_6
  rw [View.canon_unit_zero zeroOffsets]
  simp only [View.ld_unit_zero (S := S2000x128) zeroOffsets, View.ld_unit_zero (S := S1x128) zeroOffsets]
  obtain ⟨-, -, -, -, -, -, -, -, -, -, -, -, e0, e1⟩ := blockIndex_facts t
  refine block_ext fun p q => ?_
  show k0_pay3 (F := Ideal) (iblk0 V c 0 t) (iblk0 V c 3 t) (iblk0 V c 4 t) (ix2 p q)
    = Spec.layerNorm (V c main_arg0) (fun q => (V c main_v2 : S1x128.Idx → EReal) (ix2 0 q))
        (fun q => (V c main_v3 : S1x128.Idx → EReal) (ix2 0 q)) (((cfg0.win 6).blk t).view.emb (ix2 p q))
  have hemb : ((cfg0.win 6).blk t).view.emb (ix2 p q) = (ix2 ⟨2000 * t.val + p.val, row_lt t p⟩ q : S100000x128.Idx) := by
    funext a
    apply Fin.ext
    match a with
    | ⟨0, _⟩ => show win0_6.index t (0 : Fin 2) * 2000 + 1 * p.val = 2000 * t.val + p.val; rw [e0]; omega
    | ⟨1, _⟩ => show win0_6.index t (1 : Fin 2) * 128 + 1 * q.val = q.val; rw [e1]; omega
  rw [hemb]
  refine (revStored_apply _ _ _ p q).trans ?_
  exact stored_eq_layerNorm (V c main_arg0) (V c main_v2) (V c main_v3) (iblk0 V c 0 t) ⟨2000 * t.val + p.val, row_lt t p⟩ p q _ _
    (fun k => nodeBlock_apply V c t (ix2 p k) (ix2 ⟨2000 * t.val + p.val, row_lt t p⟩ k) rfl rfl)
    (paramBlock_apply V c t q).2.2.1 (paramBlock_apply V c t q).2.2.2

/-- The reverse-direction normalised array (output window 6). -/
theorem hrev_array (c : Dev nD) :
    (dat0 (F := Ideal) V c).arrAt 6 cfg0.N
      = Spec.layerNorm (V c main_arg0) (fun q => (V c main_v2 : S1x128.Idx → EReal) (ix2 0 q))
          (fun q => (V c main_v3 : S1x128.Idx → EReal) (ix2 0 q)) :=
  (dat0 (F := Ideal) V c).arrAt_eq_of_cover 6 _ (fun t _ => revFlushed_eq V c t) revCover

end Cert.KernelIdeal.Norm

end
-- ==== Proof.Region1.lean ====
/-
  The second kernel region: what its output array holds when the region ends, for any contents `V` the region is
  entered with. Grid point t forms, for rows 2000 t … 2000 t + 1999, the two linear layers with rectifier and adds them to
  the input rows; each output entry reads only its own row of the five node arrays, so block t of the output is block t
  of one whole-array function, and the 50 blocks tile the array.
-/
import proofs.«119950_j31138512896530_1_alg».proof.Proof.Gen.KernelIdeal.Frame
import proofs.«119950_j31138512896530_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Combine

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## One product of a row block with a weight matrix, entry by entry

  The product contracts the lane axis of BOTH operands: entry (p, q) pairs row p of the block with row q of the
  weight, so the weight is read by (output lane, input lane). -/

/-- The left operand's row coordinate is the output's row. -/
theorem lhs_axis0 (i : S2000x128.Idx) (q : dot_S2000x128_S128x128_S2000x128_1_1_0_0_n_n.contr.Idx) :
    (dot_S2000x128_S128x128_S2000x128_1_1_0_0_n_n.lhsIdx i q 0).val = (i 0).val := by
  unfold DotDims.lhsIdx
  rw [dif_neg (show ¬(0 : Fin S2000x128.rank) ∈ dot_S2000x128_S128x128_S2000x128_1_1_0_0_n_n.lhsBatch by decide), dif_pos (show (0 : Fin S2000x128.rank) ∈ dot_S2000x128_S128x128_S2000x128_1_1_0_0_n_n.lhsNonContracting by decide)]
  rfl
/-- The left operand's lane coordinate is the summation index. -/
theorem lhs_axis1 (i : S2000x128.Idx) (q : dot_S2000x128_S128x128_S2000x128_1_1_0_0_n_n.contr.Idx) :
    (dot_S2000x128_S128x128_S2000x128_1_1_0_0_n_n.lhsIdx i q 1).val = (q ⟨0, by decide⟩).val :=
  dot_S2000x128_S128x128_S2000x128_1_1_0_0_n_n.lhsIdx_val_of_single rfl i q
/-- The weight's first coordinate is the output's lane. -/
theorem rhs_axis0 (i : S2000x128.Idx) (q : dot_S2000x128_S128x128_S2000x128_1_1_0_0_n_n.contr.Idx) :
    (dot_S2000x128_S128x128_S2000x128_1_1_0_0_n_n.rhsIdx i q 0).val = (i 1).val := by
  unfold DotDims.rhsIdx
  rw [dif_neg (show ¬(0 : Fin S128x128.rank) ∈ dot_S2000x128_S128x128_S2000x128_1_1_0_0_n_n.rhsBatch by decide), dif_pos (show (0 : Fin S128x128.rank) ∈ dot_S2000x128_S128x128_S2000x128_1_1_0_0_n_n.rhsNonContracting by decide)]
  rfl
/-- The weight's second coordinate is the summation index. -/
theorem rhs_axis1 (i : S2000x128.Idx) (q : dot_S2000x128_S128x128_S2000x128_1_1_0_0_n_n.contr.Idx) :
    (dot_S2000x128_S128x128_S2000x128_1_1_0_0_n_n.rhsIdx i q 1).val = (q ⟨0, by decide⟩).val :=
  dot_S2000x128_S128x128_S2000x128_1_1_0_0_n_n.rhsIdx_val_of_single rfl i q

/-- Entry (p, q) of the product accumulated into zero: the sum over k of the row's lane k times the weight's entry (q, k). -/
theorem matmul_at {φ₁ φ₂ : FTy} (l : FVec Ideal S2000x128 φ₁) (r : FVec Ideal S128x128 φ₂) (p : Fin 2000) (q : Fin 128) :
    matmul (F := Ideal) dot_S2000x128_S128x128_S2000x128_1_1_0_0_n_n none l r (constant (F := Ideal) S2000x128 .f32 0x00000000#32) (ix2 p q)
      = ∑ k : Fin 128, l (ix2 p k) * r (ix2 q k) := by
  simp only [matmul]
  rw [Ideal.matmul_constant_zero_apply, ← Equiv.sum_comp (ValueIdx.contrEquiv1 dot_S2000x128_S128x128_S2000x128_1_1_0_0_n_n 128 rfl rfl).symm]
  refine Finset.sum_congr rfl fun k _ => ?_
  have hk := ValueIdx.contrEquiv1_symm_val dot_S2000x128_S128x128_S2000x128_1_1_0_0_n_n 128 rfl rfl k
  have el : dot_S2000x128_S128x128_S2000x128_1_1_0_0_n_n.lhsIdx (ix2 p q) ((ValueIdx.contrEquiv1 dot_S2000x128_S128x128_S2000x128_1_1_0_0_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_1_0_0_n_n.rhsIdx (ix2 p q) ((ValueIdx.contrEquiv1 dot_S2000x128_S128x128_S2000x128_1_1_0_0_n_n 128 rfl rfl).symm k) = ix2 q k := funext fun a => Fin.ext (by
    match a with
    | ⟨0, _⟩ => exact rhs_axis0 _ _
    | ⟨1, _⟩ => exact (rhs_axis1 _ _).trans hk)
  rw [el, er]

/-! ## What one grid point stores, entry by entry -/

/-- The forward layer of a row block at (p, q): the rectified sum of the two products and the bias. -/
theorem forward_at (hf nf : Vec Ideal S2000x128 .f32) (Ws Wn : Vec Ideal S128x128 .f32) (b : Vec Ideal S1x128 .f32)
    (p : Fin 2000) (q : Fin 128) :
    k1_pay2 (F := Ideal) hf nf Ws Wn b (ix2 p q)
      = Spec.sage (fun k => hf (ix2 p k)) (fun k => nf (ix2 p k)) (fun k => Ws (ix2 q k)) (fun k => Wn (ix2 q k))
          (b (ix2 0 q)) := by
  unfold k1_pay2 Spec.sage Spec.zero
  simp only [maximumf_apply, addf_apply, broadcast_apply, matmul_at, broadcastTo_1b_ab_apply, shapeCast_self, truncf_apply]
  rfl

/-- The reverse layer's two products of a row block at (p, q), before its bias and rectifier. -/
theorem reverse_at (hr nr : Vec Ideal S2000x128 .f32) (Wsr Wnr : Vec Ideal S128x128 .f32) (p : Fin 2000) (q : Fin 128) :
    k1_pay3 (F := Ideal) hr nr Wsr Wnr (ix2 p q)
      = (∑ k : Fin 128, hr (ix2 p k) * Wsr (ix2 q k)) + ∑ k : Fin 128, nr (ix2 p k) * Wnr (ix2 q k) := by
  unfold k1_pay3
  simp only [addf_apply, matmul_at, shapeCast_self, truncf_apply]

/-- The stored block at (p, q): the input entry plus the forward layer, plus the reverse layer. -/
theorem stored_at (hf nf hr nr x : Vec Ideal S2000x128 .f32) (Ws Wn : Vec Ideal S128x128 .f32) (b : Vec Ideal S1x128 .f32)
    (Wsr Wnr : Vec Ideal S128x128 .f32) (br : Vec Ideal S1x128 .f32) (p : Fin 2000) (q : Fin 128) :
    k1_pay1 (F := Ideal) (k1_pay2 hf nf Ws Wn b) (k1_pay3 hr nr Wsr Wnr) (k1_pay4 br) x (ix2 p q)
      = (x (ix2 p q) + Spec.sage (fun k => hf (ix2 p k)) (fun k => nf (ix2 p k)) (fun k => Ws (ix2 q k))
            (fun k => Wn (ix2 q k)) (b (ix2 0 q)))
          + Spec.sage (fun k => hr (ix2 p k)) (fun k => nr (ix2 p k)) (fun k => Wsr (ix2 q k))
            (fun k => Wnr (ix2 q k)) (br (ix2 0 q)) := by
  unfold k1_pay1 k1_pay4
  simp only [maximumf_apply, addf_apply, broadcast_apply, broadcastTo_1b_ab_apply, shapeCast_self, forward_at, reverse_at]
  rfl

/-- The stored block at (p, q) against whole arrays: if row p of each row block is row r of its array, and the weight
    and bias blocks are their arrays, the stored entry is the result at (r, q). -/
theorem stored_eq_outAt (hf nf hr nr x : Vec Ideal S2000x128 .f32) (Ws Wn : Vec Ideal S128x128 .f32) (b : Vec Ideal S1x128 .f32)
    (Wsr Wnr : Vec Ideal S128x128 .f32) (br : Vec Ideal S1x128 .f32)
    (X HF NF HR NR : Spec.Nodes) (WS WN WSR WNR : S128x128.Idx → EReal) (B BR : S1x128.Idx → EReal)
    (p : Fin 2000) (q : Fin 128) (r : Fin 100000)
    (hhf : ∀ k, hf (ix2 p k) = HF (ix2 r k)) (hnf : ∀ k, nf (ix2 p k) = NF (ix2 r k))
    (hhr : ∀ k, hr (ix2 p k) = HR (ix2 r k)) (hnr : ∀ k, nr (ix2 p k) = NR (ix2 r k))
    (hx : ∀ k, x (ix2 p k) = X (ix2 r k))
    (hWs : ∀ k, Ws (ix2 q k) = WS (ix2 q k)) (hWn : ∀ k, Wn (ix2 q k) = WN (ix2 q k))
    (hWsr : ∀ k, Wsr (ix2 q k) = WSR (ix2 q k)) (hWnr : ∀ k, Wnr (ix2 q k) = WNR (ix2 q k))
    (hb : b (ix2 0 q) = B (ix2 0 q)) (hbr : br (ix2 0 q) = BR (ix2 0 q)) :
    k1_pay1 (F := Ideal) (k1_pay2 hf nf Ws Wn b) (k1_pay3 hr nr Wsr Wnr) (k1_pay4 br) x (ix2 p q)
      = Spec.outAt X HF NF HR NR (fun q k => WS (ix2 q k)) (fun q k => WN (ix2 q k)) (fun q k => WSR (ix2 q k))
          (fun q k => WNR (ix2 q k)) (fun q => B (ix2 0 q)) (fun q => BR (ix2 0 q)) r q := by
  rw [stored_at]
  unfold Spec.outAt
  simp only [hhf, hnf, hhr, hnr, hx, hWs, hWn, hWsr, hWnr, hb, hbr]

/-! ## Where each block sits in its array

  Each window's block index, decided once over the 50 grid points: the five row-block windows and the output sit at
  block (t, 0); the weights and the biases are read whole at every point. -/

theorem hz : (![0, 0] : Fin 2 → Nat) = fun _ => 0 := funext fun a => by fin_cases a <;> rfl

theorem index_hf : ∀ t : Fin cfg1.N, win1_0.index t (0 : Fin 2) = t.val ∧ win1_0.index t (1 : Fin 2) = 0 :=
  (by decide +kernel : ∀ t : Fin grid1.N, _)
theorem index_nf : ∀ t : Fin cfg1.N, win1_1.index t (0 : Fin 2) = t.val ∧ win1_1.index t (1 : Fin 2) = 0 :=
  (by decide +kernel : ∀ t : Fin grid1.N, _)
theorem index_hr : ∀ t : Fin cfg1.N, win1_2.index t (0 : Fin 2) = t.val ∧ win1_2.index t (1 : Fin 2) = 0 :=
  (by decide +kernel : ∀ t : Fin grid1.N, _)
theorem index_nr : ∀ t : Fin cfg1.N, win1_3.index t (0 : Fin 2) = t.val ∧ win1_3.index t (1 : Fin 2) = 0 :=
  (by decide +kernel : ∀ t : Fin grid1.N, _)
theorem index_x : ∀ t : Fin cfg1.N, win1_4.index t (0 : Fin 2) = t.val ∧ win1_4.index t (1 : Fin 2) = 0 :=
  (by decide +kernel : ∀ t : Fin grid1.N, _)
theorem index_Ws : ∀ t : Fin cfg1.N, win1_5.index t (0 : Fin 2) = 0 ∧ win1_5.index t (1 : Fin 2) = 0 :=
  (by decide +kernel : ∀ t : Fin grid1.N, _)
theorem index_Wn : ∀ t : Fin cfg1.N, win1_6.index t (0 : Fin 2) = 0 ∧ win1_6.index t (1 : Fin 2) = 0 :=
  (by decide +kernel : ∀ t : Fin grid1.N, _)
theorem index_b : ∀ t : Fin cfg1.N, win1_7.index t (0 : Fin 2) = 0 ∧ win1_7.index t (1 : Fin 2) = 0 :=
  (by decide +kernel : ∀ t : Fin grid1.N, _)
theorem index_Wsr : ∀ t : Fin cfg1.N, win1_8.index t (0 : Fin 2) = 0 ∧ win1_8.index t (1 : Fin 2) = 0 :=
  (by decide +kernel : ∀ t : Fin grid1.N, _)
theorem index_Wnr : ∀ t : Fin cfg1.N, win1_9.index t (0 : Fin 2) = 0 ∧ win1_9.index t (1 : Fin 2) = 0 :=
  (by decide +kernel : ∀ t : Fin grid1.N, _)
theorem index_br : ∀ t : Fin cfg1.N, win1_10.index t (0 : Fin 2) = 0 ∧ win1_10.index t (1 : Fin 2) = 0 :=
  (by decide +kernel : ∀ t : Fin grid1.N, _)
theorem index_out : ∀ t : Fin cfg1.N, win1_11.index t (0 : Fin 2) = t.val ∧ win1_11.index t (1 : Fin 2) = 0 :=
  (by decide +kernel : ∀ t : Fin grid1.N, _)

/-! ## Each input block as entries of its array

  A block's entry sits in the array, on each axis, at the block index times the block's size plus its own coordinate. -/

/-- Row p of point t's block of the forward layer's own rows is row 2000 t + p of the array. -/
theorem hf_at (c : Dev nD) (t : Fin cfg1.N) (p : Fin 2000) (k : Fin 128) (r : Fin 100000)
    (hr : r.val = t.val * 2000 + p.val) :
    (iblk1 V c 0 t : Vec Ideal S2000x128 .f32) (ix2 p k) = (V c main_v4_0 : S100000x128.Idx → EReal) (ix2 r k) := by
  obtain ⟨e0, e1⟩ := index_hf t
  show (V c main_v4_0 : S100000x128.Idx → EReal) (((cfg1.win 0).blk t).view.emb (ix2 p k)) = _
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

/-- Row p of point t's block of the forward layer's neighbourhood rows is row 2000 t + p of the array. -/
theorem nf_at (c : Dev nD) (t : Fin cfg1.N) (p : Fin 2000) (k : Fin 128) (r : Fin 100000)
    (hr : r.val = t.val * 2000 + p.val) :
    (iblk1 V c 1 t : Vec Ideal S2000x128 .f32) (ix2 p k) = (V c main_v23 : S100000x128.Idx → EReal) (ix2 r k) := by
  obtain ⟨e0, e1⟩ := index_nf t
  show (V c main_v23 : S100000x128.Idx → EReal) (((cfg1.win 1).blk t).view.emb (ix2 p k)) = _
  refine congrArg _ (funext fun a => Fin.ext ?_)
  match a with
  | ⟨0, _⟩ => show win1_1.index t (0 : Fin 2) * 2000 + 1 * p.val = r.val; omega
  | ⟨1, _⟩ => show win1_1.index t (1 : Fin 2) * 128 + 1 * k.val = k.val; omega

/-- Row p of point t's block of the reverse layer's own rows is row 2000 t + p of the array. -/
theorem hr_at (c : Dev nD) (t : Fin cfg1.N) (p : Fin 2000) (k : Fin 128) (r : Fin 100000)
    (hr : r.val = t.val * 2000 + p.val) :
    (iblk1 V c 2 t : Vec Ideal S2000x128 .f32) (ix2 p k) = (V c main_v4_1 : S100000x128.Idx → EReal) (ix2 r k) := by
  obtain ⟨e0, e1⟩ := index_hr t
  show (V c main_v4_1 : S100000x128.Idx → EReal) (((cfg1.win 2).blk t).view.emb (ix2 p k)) = _
  refine congrArg _ (funext fun a => Fin.ext ?_)
  match a with
  | ⟨0, _⟩ => show win1_2.index t (0 : Fin 2) * 2000 + 1 * p.val = r.val; omega
  | ⟨1, _⟩ => show win1_2.index t (1 : Fin 2) * 128 + 1 * k.val = k.val; omega

/-- Row p of point t's block of the reverse layer's neighbourhood rows is row 2000 t + p of the array. -/
theorem nr_at (c : Dev nD) (t : Fin cfg1.N) (p : Fin 2000) (k : Fin 128) (r : Fin 100000)
    (hr : r.val = t.val * 2000 + p.val) :
    (iblk1 V c 3 t : Vec Ideal S2000x128 .f32) (ix2 p k) = (V c main_v42 : S100000x128.Idx → EReal) (ix2 r k) := by
  obtain ⟨e0, e1⟩ := index_nr t
  show (V c main_v42 : S100000x128.Idx → EReal) (((cfg1.win 3).blk t).view.emb (ix2 p k)) = _
  refine congrArg _ (funext fun a => Fin.ext ?_)
  match a with
  | ⟨0, _⟩ => show win1_3.index t (0 : Fin 2) * 2000 + 1 * p.val = r.val; omega
  | ⟨1, _⟩ => show win1_3.index t (1 : Fin 2) * 128 + 1 * k.val = k.val; omega

/-- Row p of point t's block of the input rows is row 2000 t + p of the array. -/
theorem x_at (c : Dev nD) (t : Fin cfg1.N) (p : Fin 2000) (k : Fin 128) (r : Fin 100000)
    (hr : r.val = t.val * 2000 + p.val) :
    (iblk1 V c 4 t : Vec Ideal S2000x128 .f32) (ix2 p k) = (V c main_arg0 : S100000x128.Idx → EReal) (ix2 r k) := by
  obtain ⟨e0, e1⟩ := index_x t
  show (V c main_arg0 : S100000x128.Idx → EReal) (((cfg1.win 4).blk t).view.emb (ix2 p k)) = _
  refine congrArg _ (funext fun a => Fin.ext ?_)
  match a with
  | ⟨0, _⟩ => show win1_4.index t (0 : Fin 2) * 2000 + 1 * p.val = r.val; omega
  | ⟨1, _⟩ => show win1_4.index t (1 : Fin 2) * 128 + 1 * k.val = k.val; omega

/-- Every point's block of the forward layer's own-row weight is the whole matrix. -/
theorem Ws_at (c : Dev nD) (t : Fin cfg1.N) (q k : Fin 128) :
    (iblk1 V c 5 t : Vec Ideal S128x128 .f32) (ix2 q k) = (V c main_arg5 : S128x128.Idx → EReal) (ix2 q k) := by
  obtain ⟨e0, e1⟩ := index_Ws t
  show (V c main_arg5 : S128x128.Idx → EReal) (((cfg1.win 5).blk t).view.emb (ix2 q k)) = _
  refine congrArg _ (funext fun a => Fin.ext ?_)
  match a with
  | ⟨0, _⟩ => show win1_5.index t (0 : Fin 2) * 128 + 1 * q.val = q.val; omega
  | ⟨1, _⟩ => show win1_5.index t (1 : Fin 2) * 128 + 1 * k.val = k.val; omega

/-- Every point's block of the forward layer's neighbourhood weight is the whole matrix. -/
theorem Wn_at (c : Dev nD) (t : Fin cfg1.N) (q k : Fin 128) :
    (iblk1 V c 6 t : Vec Ideal S128x128 .f32) (ix2 q k) = (V c main_arg6 : S128x128.Idx → EReal) (ix2 q k) := by
  obtain ⟨e0, e1⟩ := index_Wn t
  show (V c main_arg6 : S128x128.Idx → EReal) (((cfg1.win 6).blk t).view.emb (ix2 q k)) = _
  refine congrArg _ (funext fun a => Fin.ext ?_)
  match a with
  | ⟨0, _⟩ => show win1_6.index t (0 : Fin 2) * 128 + 1 * q.val = q.val; omega
  | ⟨1, _⟩ => show win1_6.index t (1 : Fin 2) * 128 + 1 * k.val = k.val; omega

/-- Every point's block of the forward layer's bias is the whole vector. -/
theorem b_at (c : Dev nD) (t : Fin cfg1.N) (q : Fin 128) :
    (iblk1 V c 7 t : Vec Ideal S1x128 .f32) (ix2 0 q) = (V c main_v43 : S1x128.Idx → EReal) (ix2 0 q) := by
  obtain ⟨e0, e1⟩ := index_b t
  show (V c main_v43 : S1x128.Idx → EReal) (((cfg1.win 7).blk t).view.emb (ix2 0 q)) = _
  refine congrArg _ (funext fun a => Fin.ext ?_)
  match a with
  | ⟨0, _⟩ => show win1_7.index t (0 : Fin 2) * 1 + 1 * (0 : Fin 1).val = (0 : Fin 1).val; omega
  | ⟨1, _⟩ => show win1_7.index t (1 : Fin 2) * 128 + 1 * q.val = q.val; omega

/-- Every point's block of the reverse layer's own-row weight is the whole matrix. -/
theorem Wsr_at (c : Dev nD) (t : Fin cfg1.N) (q k : Fin 128) :
    (iblk1 V c 8 t : Vec Ideal S128x128 .f32) (ix2 q k) = (V c main_arg10 : S128x128.Idx → EReal) (ix2 q k) := by
  obtain ⟨e0, e1⟩ := index_Wsr t
  show (V c main_arg10 : S128x128.Idx → EReal) (((cfg1.win 8).blk t).view.emb (ix2 q k)) = _
  refine congrArg _ (funext fun a => Fin.ext ?_)
  match a with
  | ⟨0, _⟩ => show win1_8.index t (0 : Fin 2) * 128 + 1 * q.val = q.val; omega
  | ⟨1, _⟩ => show win1_8.index t (1 : Fin 2) * 128 + 1 * k.val = k.val; omega

/-- Every point's block of the reverse layer's neighbourhood weight is the whole matrix. -/
theorem Wnr_at (c : Dev nD) (t : Fin cfg1.N) (q k : Fin 128) :
    (iblk1 V c 9 t : Vec Ideal S128x128 .f32) (ix2 q k) = (V c main_arg11 : S128x128.Idx → EReal) (ix2 q k) := by
  obtain ⟨e0, e1⟩ := index_Wnr t
  show (V c main_arg11 : S128x128.Idx → EReal) (((cfg1.win 9).blk t).view.emb (ix2 q k)) = _
  refine congrArg _ (funext fun a => Fin.ext ?_)
  match a with
  | ⟨0, _⟩ => show win1_9.index t (0 : Fin 2) * 128 + 1 * q.val = q.val; omega
  | ⟨1, _⟩ => show win1_9.index t (1 : Fin 2) * 128 + 1 * k.val = k.val; omega

/-- Every point's block of the reverse layer's bias is the whole vector. -/
theorem br_at (c : Dev nD) (t : Fin cfg1.N) (q : Fin 128) :
    (iblk1 V c 10 t : Vec Ideal S1x128 .f32) (ix2 0 q) = (V c main_v44 : S1x128.Idx → EReal) (ix2 0 q) := by
  obtain ⟨e0, e1⟩ := index_br t
  show (V c main_v44 : S1x128.Idx → EReal) (((cfg1.win 10).blk t).view.emb (ix2 0 q)) = _
  refine congrArg _ (funext fun a => Fin.ext ?_)
  match a with
  | ⟨0, _⟩ => show win1_10.index t (0 : Fin 2) * 1 + 1 * (0 : Fin 1).val = (0 : Fin 1).val; omega
  | ⟨1, _⟩ => show win1_10.index t (1 : Fin 2) * 128 + 1 * q.val = q.val; omega

/-- Entry (p, q) of point t's output block is entry (2000 t + p, q) of the output array. -/
theorem out_emb (t : Fin cfg1.N) (p : Fin 2000) (q : Fin 128) (r : Fin 100000) (hr : r.val = t.val * 2000 + p.val) :
    (((cfg1.win 11).blk t).view.emb (ix2 p q) : S100000x128.Idx) = ix2 r q := by
  obtain ⟨e0, e1⟩ := index_out t
  refine funext fun a => Fin.ext ?_
  match a with
  | ⟨0, _⟩ => show win1_11.index t (0 : Fin 2) * 2000 + 1 * p.val = r.val; omega
  | ⟨1, _⟩ => show win1_11.index t (1 : Fin 2) * 128 + 1 * q.val = q.val; omega

/-! ## From blocks to the array -/

/-- The whole-array function whose block t is what point t stores. -/
abbrev result (c : Dev nD) : Spec.Nodes :=
  Spec.out (V c main_arg0) (V c main_v4_0) (V c main_v23) (V c main_v4_1) (V c main_v42)
    (fun q k => (V c main_arg5 : S128x128.Idx → EReal) (ix2 q k))
    (fun q k => (V c main_arg6 : S128x128.Idx → EReal) (ix2 q k))
    (fun q k => (V c main_arg10 : S128x128.Idx → EReal) (ix2 q k))
    (fun q k => (V c main_arg11 : S128x128.Idx → EReal) (ix2 q k))
    (fun q => (V c main_v43 : S1x128.Idx → EReal) (ix2 0 q))
    (fun q => (V c main_v44 : S1x128.Idx → EReal) (ix2 0 q))

/-- What point t writes back is block t of the result. -/
theorem flushed_eq (c : Dev nD) (t : Fin cfg1.N) :
    (dat1 (F := Ideal) V c).flushed 11 t = ((cfg1.win 11).blk t).view.read (Elt Ideal) (result V c) := by
  show (cfg1.win 11).cut (grid1.coords t) ((dat1 V c).after 11 t) = _
  rw [after1_11]
  unfold out1_11
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  have ht : t.val < 50 := lt_of_lt_of_eq t.isLt N_1
  obtain ⟨r, hr⟩ : ∃ r : Fin 100000, r.val = t.val * 2000 + p.val := ⟨⟨t.val * 2000 + p.val, by omega⟩, rfl⟩
  show _ = result V c (((cfg1.win 11).blk t).view.emb (ix2 p q))
  rw [out_emb t p q r hr]
  exact stored_eq_outAt (iblk1 V c 0 t) (iblk1 V c 1 t) (iblk1 V c 2 t) (iblk1 V c 3 t) (iblk1 V c 4 t)
    (iblk1 V c 5 t) (iblk1 V c 6 t) (iblk1 V c 7 t) (iblk1 V c 8 t) (iblk1 V c 9 t) (iblk1 V c 10 t)
    (V c main_arg0) (V c main_v4_0) (V c main_v23) (V c main_v4_1) (V c main_v42)
    (V c main_arg5) (V c main_arg6) (V c main_arg10) (V c main_arg11) (V c main_v43) (V c main_v44) p q r
    (fun k => hf_at V c t p k r hr) (fun k => nf_at V c t p k r hr) (fun k => hr_at V c t p k r hr)
    (fun k => nr_at V c t p k r hr) (fun k => x_at V c t p k r hr)
    (fun k => Ws_at V c t q k) (fun k => Wn_at V c t q k) (fun k => Wsr_at V c t q k) (fun k => Wnr_at V c t q k)
    (b_at V c t q) (br_at V c t q)

/-- An index of the output array lies in point t's block iff each coordinate lies in the block's range. -/
theorem mem_blk (t : Fin cfg1.N) (i : S100000x128.Idx) :
    i ∈ ((cfg1.win 11).blk t).view.set ↔ ∀ a : Fin 2, win1_11.index t a * S2000x128.size a ≤ (i a).val
      ∧ (i a).val < win1_11.index t a * S2000x128.size a + S2000x128.size a := by
  show i ∈ ((View.whole main_v45).slice (win1_11.rect t)).set ↔ _
  rw [View.set_slice_whole, Rect.mem_set_unit]
  exact Iff.rfl

/-- The 50 blocks tile the array: row r lies in the block of point r / 2000. -/
theorem covered (i : S100000x128.Idx) :
    ∃ t : Fin cfg1.N, (cfg1.win 11).flush t = true ∧ i ∈ ((cfg1.win 11).blk t).view.set := by
  have hi0 : (i 0).val < 100000 := (i 0).isLt
  have hi1 : (i 1).val < 128 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨e0, e1⟩ := index_out t
  refine ⟨t, flush1_11 t, ?_⟩
  rw [mem_blk]
  intro a
  match a with
  | ⟨0, _⟩ =>
    show win1_11.index t (0 : Fin 2) * 2000 ≤ (i 0).val ∧ (i 0).val < win1_11.index t (0 : Fin 2) * 2000 + 2000
    omega
  | ⟨1, _⟩ =>
    show win1_11.index t (1 : Fin 2) * 128 ≤ (i 1).val ∧ (i 1).val < win1_11.index t (1 : Fin 2) * 128 + 128
    omega

/-- The result array (output window 11). -/
theorem out_array (c : Dev nD) :
    (dat1 (F := Ideal) V c).arrAt 11 cfg1.N
      = Spec.out (V c main_arg0) (V c main_v4_0) (V c main_v23) (V c main_v4_1) (V c main_v42)
          (fun q k => (V c main_arg5 : S128x128.Idx → EReal) (ix2 q k))
          (fun q k => (V c main_arg6 : S128x128.Idx → EReal) (ix2 q k))
          (fun q k => (V c main_arg10 : S128x128.Idx → EReal) (ix2 q k))
          (fun q k => (V c main_arg11 : S128x128.Idx → EReal) (ix2 q k))
          (fun q => (V c main_v43 : S1x128.Idx → EReal) (ix2 0 q))
          (fun q => (V c main_v44 : S1x128.Idx → EReal) (ix2 0 q)) :=
  (dat1 (F := Ideal) V c).arrAt_eq_of_cover 11 (result V c) (fun t _ => flushed_eq V c t) covered

end Cert.KernelIdeal.Combine

end
-- ==== Proof.Result.lean ====
/-
  The idealized kernel program's result as one function of its arguments: the two normalised arrays are the row-wise
  normalisation of the input, the two neighbourhood means are the host chain applied to them, and the second region
  forms the specification's result array from these, the input and the parameters. Each fact is read off the segment
  boundaries' contents; nothing about an entry being finite is used.
-/
import proofs.«119950_j31138512896530_1_alg».proof.Proof.Fold
import proofs.«119950_j31138512896530_1_alg».proof.Proof.Region0
import proofs.«119950_j31138512896530_1_alg».proof.Proof.Region1
import proofs.«119950_j31138512896530_1_alg».proof.Proof.RunResult
import proofs.«119950_j31138512896530_1_alg».proof.Proof.Spec

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- A [128] parameter as a function of the lane. -/
abbrev lane (v : S128.Idx → EReal) : Spec.Lane := fun q => v (ix1 q)
/-- A [128,128] weight as a function of (output lane, input lane). -/
abbrev mat (w : S128x128.Idx → EReal) : Spec.Mat := fun q k => w (ix2 q k)

/-- The forward and the reverse normalised arrays. -/
def hfwd (c : Dev nD) : Spec.Nodes := Spec.layerNorm (m ((c : Thread nD τ).loc main_arg0)) (lane (m ((c : Thread nD τ).loc main_arg3))) (lane (m ((c : Thread nD τ).loc main_arg4)))
def hrev (c : Dev nD) : Spec.Nodes := Spec.layerNorm (m ((c : Thread nD τ).loc main_arg0)) (lane (m ((c : Thread nD τ).loc main_arg8))) (lane (m ((c : Thread nD τ).loc main_arg9)))

/-- The result array as a function of the argument arrays. -/
def value (c : Dev nD) : Spec.Nodes :=
  Spec.out (m ((c : Thread nD τ).loc main_arg0))
    (hfwd m c) (Fold.neighMean (F := Ideal) (hfwd m c) (m ((c : Thread nD τ).loc main_arg1)) (m ((c : Thread nD τ).loc main_arg2)))
    (hrev m c) (Fold.neighMean (F := Ideal) (hrev m c) (m ((c : Thread nD τ).loc main_arg2)) (m ((c : Thread nD τ).loc main_arg1)))
    (mat (m ((c : Thread nD τ).loc main_arg5))) (mat (m ((c : Thread nD τ).loc main_arg6))) (mat (m ((c : Thread nD τ).loc main_arg10))) (mat (m ((c : Thread nD τ).loc main_arg11)))
    (lane (m ((c : Thread nD τ).loc main_arg7))) (lane (m ((c : Thread nD τ).loc main_arg12)))

/-- The first region leaves the forward normalised array in its first output. -/
theorem hfwd_eq (c : Dev nD) : (dat0 (V1 m ρ) c).arrAt 5 cfg0.N = hfwd m c := by
  rw [Norm.hfwd_array (V1 m ρ) c, Fold.entry0_x, Fold.entry0_scale, Fold.entry0_shift]
  simp only [Fold.reshape_row_apply]
  rfl

/-- … and the reverse one in its second. -/
theorem hrev_eq (c : Dev nD) : (dat0 (V1 m ρ) c).arrAt 6 cfg0.N = hrev m c := by
  rw [Norm.hrev_array (V1 m ρ) c, Fold.entry0_x, Fold.entry0_scale_r, Fold.entry0_shift_r]
  simp only [Fold.reshape_row_apply]
  rfl

/-- The result array at the last boundary is `value`. -/
theorem result_eq (c : Dev nD) : W4 m ρ c (Proc.devRef .tc main_v45) = value m c := by
  rw [show W4 m ρ c (Proc.devRef .tc main_v45) = (dat1 (V3 m ρ) c).arrAt 11 cfg1.N from W4_arr m ρ c 11]
  rw [Combine.out_array (V3 m ρ) c]
  rw [Fold.mid_x, Fold.mid_hfwd, Fold.mid_hrev, Fold.mid_neigh_fwd, Fold.mid_neigh_rev, Fold.mid_wself, Fold.mid_wneigh,
    Fold.mid_wself_r, Fold.mid_wneigh_r, Fold.mid_bias, Fold.mid_bias_r]
  rw [Fold.exit0_hfwd, Fold.exit0_hrev, Fold.exit0_src, Fold.exit0_dst, Fold.exit0_bias, Fold.exit0_bias_r]
  rw [hfwd_eq, hrev_eq]
  simp only [Fold.reshape_row_apply]
  rfl

/-- Every weakly fair execution of the idealized kernel program terminates with the result array at `value` and the
    argument arrays as launched. -/
theorem run : θ_run defs (onTc (τ := τ) (main (F := Ideal))) ⟨m, fun _ => 0, ρ⟩ (fun r => ∀ c : Dev nD,
      r.2.mem ((c.tc : Thread nD τ).loc main_v45) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (result_eq m ρ c), (h c).2⟩) (RunResult.run_result m ρ)

end Cert.KernelIdeal.Result

end
-- ==== Proof.RefValue.lean ====
/-
  The reference program's result, stage by stage, against the specification: its two row-wise normalisations are
  `Spec.layerNorm` of the input, its two neighbourhood means are one fixed chain of host operations (negative indices
  wrapped, rows gathered, scatter-added by destination, divided by the in-degree clamped below at 1) applied to a
  normalised array and the two index vectors, and its result is `Spec.out` of those four arrays, the input and the
  parameters. A host sum starts from the constant 0, which adds nothing; the reference adds the two rectified layers
  first and the input last, the same extended real as the other grouping (`Spec.outAt_assoc`).
-/
import proofs.«119950_j31138512896530_1_alg».proof.Proof.Gen.ReferenceIdeal.Read
import proofs.«119950_j31138512896530_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx

variable {F : FTy → Type} [FloatOps F]

/-- The neighbourhood mean as ONE function of a node array `h`, the index vector `gi` rows are gathered by and the index
    vector `si` they are scatter-added by: the reference's own operations, in its order. Never opened: both programs apply it. -/
def neighMean (h : FVec F S100000x128 .f32) (gi si : IVec S640000 32) : FVec F S100000x128 .f32 :=
  Host.divf
    (Host.scatterAdd scatter_S100000x128_S640000x1_S640000x128_1_0_0_1
      (broadcastInDim S100000x128 ![] bcast_S_S100000x128 (constant S_ .f32 0x00000000#32))
      (broadcastInDim S640000x1 ![0] bcast_S640000_S640000x1_0 si)
      (Host.gather gather_S100000x128_S640000x1_S640000x128_1_0_n_n_0_1_1128 h
        (broadcastInDim S640000x1 ![0] bcast_S640000_S640000x1_0
          (select (cmpi .slt gi (broadcastInDim S640000 ![] bcast_S_S640000 (constantI S_ 32 0#32)))
            (addi gi (broadcastInDim S640000 ![] bcast_S_S640000 (constantI S_ 32 100000#32))) gi))))
    (broadcastInDim S100000x128 ![0, 1] bcast_S100000x1_S100000x128_0_1
      (broadcastInDim S100000x1 ![0] bcast_S100000_S100000x1_0
        (maximumf
          (Host.scatterAdd scatter_S100000_S640000x1_S640000_n_0_0_1
            (broadcastInDim S100000 ![] bcast_S_S100000 (constant S_ .f32 0x00000000#32))
            (broadcastInDim S640000x1 ![0] bcast_S640000_S640000x1_0 si)
            (broadcastInDim S640000 ![] bcast_S_S640000 (constant S_ .f32 0x3F800000#32)))
          (broadcastInDim S100000 ![] bcast_S_S100000 (constant S_ .f32 0x3F800000#32)))))

/-- The forward branch's row mean, read at the column index of row `r`: the row's sum from 0, divided by 128. -/
theorem mean_at (x0 : FVec Ideal S100000x128 .f32) (r : Fin 100000) (q : Fin 128) :
    val_main_v3 (F := Ideal) x0 (idx_main_v4 (ix2 r q)) = Spec.rowMean (fun k => x0 (ix2 r k)) := by
  rw [val_main_v3_apply, val_main_v1_apply, val_main_v0_apply, val_main_v2_apply, val_main_cst_0_apply, val_main_cst_apply]
  simp only [Ideal.hostDivf_def, Ideal.ofBits_def, Ideal.ofBits_zero_f32, zero_add]
  unfold Spec.rowMean Spec.lanes
  refine congrArg (fun s => Ideal.div s _) (Finset.sum_congr rfl fun k _ => congrArg x0 ?_)
  funext a; exact Fin.ext (by match a with | ⟨0, _⟩ => rfl | ⟨1, _⟩ => rfl)

/-- The forward branch's row variance at row `r`: the sum from 0 of the squared deviations from the row mean, divided by 128. -/
theorem var_at (x0 : FVec Ideal S100000x128 .f32) (r : Fin 100000) (q : Fin 128) :
    val_main_v10 (F := Ideal) x0 (idx_main_v16 (ix2 r q)) = Spec.rowVar (fun k => x0 (ix2 r k)) := by
  rw [val_main_v10_apply, val_main_v8_apply, val_main_v7_apply, val_main_v9_apply, val_main_cst_2_apply, val_main_cst_1_apply]
  simp only [Ideal.hostDivf_def, Ideal.ofBits_def, Ideal.ofBits_zero_f32, zero_add]
  unfold Spec.rowVar Spec.lanes
  refine congrArg (fun s => Ideal.div s _) (Finset.sum_congr rfl fun k _ => ?_)
  have hk : idx_main_v7 (idx_main_v8 (idx_main_v16 (ix2 r q))) k = ix2 r k :=
    funext fun a => Fin.ext (by match a with | ⟨0, _⟩ => rfl | ⟨1, _⟩ => rfl)
  rw [hk, val_main_v6_apply, val_main_v5_apply, val_main_v4_apply, mean_at]
  simp only [Ideal.mulf_def, Ideal.subf_def]

/-- The forward normalised array at `(r, q)`: deviation from the mean times the reciprocal root of variance plus the
    offset, times the scale at lane `q`, plus the shift at lane `q`. -/
theorem ln_at (x0 : FVec Ideal S100000x128 .f32) (x3 x4 : FVec Ideal S128 .f32) (r : Fin 100000) (q : Fin 128) :
    val_main_v23 (F := Ideal) x0 x3 x4 (ix2 r q)
      = Spec.layerNormAt x0 (fun q => x3 (ix1 q)) (fun q => x4 (ix1 q)) r q := by
  rw [val_main_v23_apply, val_main_v20_apply, val_main_v22_apply, val_main_v21_apply, val_main_v17_apply,
    val_main_v19_apply, val_main_v18_apply, val_main_v12_apply, val_main_v16_apply, val_main_v11_apply,
    val_main_v15_apply, val_main_v14_apply, val_main_v13_apply, val_main_cst_3_apply]
  rw [show idx_main_v11 (ix2 r q) = idx_main_v4 (ix2 r q) from rfl, mean_at, var_at]
  have h3 : idx_main_v18 (idx_main_v19 (ix2 r q)) = ix1 q :=
    funext fun a => Fin.ext (by match a with | ⟨0, _⟩ => rfl)
  have h4 : idx_main_v21 (idx_main_v22 (ix2 r q)) = ix1 q :=
    funext fun a => Fin.ext (by match a with | ⟨0, _⟩ => rfl)
  rw [h3, h4]
  simp only [Ideal.addf_def, Ideal.mulf_def, Ideal.subf_def, Ideal.hostUnary_rsqrt_def, Ideal.ofBits_def]
  rfl

/-- The forward rectified layer at `(r, q)`: each `dot_general` is a sum over the input lane, its right operand the
    transposed weight, so the weight is read by (output lane, input lane); the bias is added last and the maximum is
    with the zero word. The normalised array and the neighbourhood mean are carried as opaque arrays. -/
theorem sage_fwd_at (x0 : FVec Ideal S100000x128 .f32) (x1 x2 : IVec S640000 32) (x3 x4 : FVec Ideal S128 .f32)
    (x5 x6 : FVec Ideal S128x128 .f32) (x7 : FVec Ideal S128 .f32) (r : Fin 100000) (q : Fin 128) :
    val_main_v51 (F := Ideal) x0 x1 x2 x3 x4 x5 x6 x7 (ix2 r q)
      = Spec.sage (fun k => val_main_v23 (F := Ideal) x0 x3 x4 (ix2 r k))
          (fun k => val_main_v42 (F := Ideal) x0 x1 x2 x3 x4 (ix2 r k))
          (fun k => x5 (ix2 q k)) (fun k => x6 (ix2 q k)) (x7 (ix1 q)) := by
  rw [val_main_v51_apply, val_main_v50_apply, val_main_v47_apply, val_main_v44_apply, val_main_v46_apply,
    val_main_v49_apply, val_main_v48_apply, val_main_call0_v0_apply, val_main_call0_cst_apply]
  generalize val_main_v23 (F := Ideal) x0 x3 x4 = hf
  generalize val_main_v42 (F := Ideal) x0 x1 x2 x3 x4 = nf
  simp only [Ideal.maximumf_def, Ideal.addf_def, Ideal.ofBits_def]
  unfold Spec.sage Spec.zero
  refine congrArg₂ max (congrArg₂ (· + ·) (congrArg₂ (· + ·) (Finset.sum_congr rfl fun k _ => ?_)
    (Finset.sum_congr rfl fun k _ => ?_)) (congrArg x7 ?_)) rfl
  · rw [val_main_v43_apply]
    exact congrArg₂ (· * ·)
      (congrArg hf (funext fun a => Fin.ext (by match a with | ⟨0, _⟩ => rfl | ⟨1, _⟩ => rfl)))
      (congrArg x5 (funext fun a => Fin.ext (by match a with | ⟨0, _⟩ => rfl | ⟨1, _⟩ => rfl)))
  · rw [val_main_v45_apply]
    exact congrArg₂ (· * ·)
      (congrArg nf (funext fun a => Fin.ext (by match a with | ⟨0, _⟩ => rfl | ⟨1, _⟩ => rfl)))
      (congrArg x6 (funext fun a => Fin.ext (by match a with | ⟨0, _⟩ => rfl | ⟨1, _⟩ => rfl)))
  · exact funext fun a => Fin.ext (by match a with | ⟨0, _⟩ => rfl)

/-- The reverse branch's row mean at row `r`. -/
theorem mean_rev_at (x0 : FVec Ideal S100000x128 .f32) (r : Fin 100000) (q : Fin 128) :
    val_main_v55 (F := Ideal) x0 (idx_main_v56 (ix2 r q)) = Spec.rowMean (fun k => x0 (ix2 r k)) := by
  rw [val_main_v55_apply, val_main_v53_apply, val_main_v52_apply, val_main_v54_apply, val_main_cst_10_apply, val_main_cst_9_apply]
  simp only [Ideal.hostDivf_def, Ideal.ofBits_def, Ideal.ofBits_zero_f32, zero_add]
  unfold Spec.rowMean Spec.lanes
  refine congrArg (fun s => Ideal.div s _) (Finset.sum_congr rfl fun k _ => congrArg x0 ?_)
  funext a; exact Fin.ext (by match a with | ⟨0, _⟩ => rfl | ⟨1, _⟩ => rfl)

/-- The reverse branch's row variance at row `r`. -/
theorem var_rev_at (x0 : FVec Ideal S100000x128 .f32) (r : Fin 100000) (q : Fin 128) :
    val_main_v62 (F := Ideal) x0 (idx_main_v68 (ix2 r q)) = Spec.rowVar (fun k => x0 (ix2 r k)) := by
  rw [val_main_v62_apply, val_main_v60_apply, val_main_v59_apply, val_main_v61_apply, val_main_cst_12_apply, val_main_cst_11_apply]
  simp only [Ideal.hostDivf_def, Ideal.ofBits_def, Ideal.ofBits_zero_f32, zero_add]
  unfold Spec.rowVar Spec.lanes
  refine congrArg (fun s => Ideal.div s _) (Finset.sum_congr rfl fun k _ => ?_)
  have hk : idx_main_v59 (idx_main_v60 (idx_main_v68 (ix2 r q))) k = ix2 r k :=
    funext fun a => Fin.ext (by match a with | ⟨0, _⟩ => rfl | ⟨1, _⟩ => rfl)
  rw [hk, val_main_v58_apply, val_main_v57_apply, val_main_v56_apply, mean_rev_at]
  simp only [Ideal.mulf_def, Ideal.subf_def]

/-- The reverse normalised array at `(r, q)`, with the second scale and shift. -/
theorem ln_rev_at (x0 : FVec Ideal S100000x128 .f32) (x8 x9 : FVec Ideal S128 .f32) (r : Fin 100000) (q : Fin 128) :
    val_main_v75 (F := Ideal) x0 x8 x9 (ix2 r q)
      = Spec.layerNormAt x0 (fun q => x8 (ix1 q)) (fun q => x9 (ix1 q)) r q := by
  rw [val_main_v75_apply, val_main_v72_apply, val_main_v74_apply, val_main_v73_apply, val_main_v69_apply,
    val_main_v71_apply, val_main_v70_apply, val_main_v64_apply, val_main_v68_apply, val_main_v63_apply,
    val_main_v67_apply, val_main_v66_apply, val_main_v65_apply, val_main_cst_13_apply]
  rw [show idx_main_v63 (ix2 r q) = idx_main_v56 (ix2 r q) from rfl, mean_rev_at, var_rev_at]
  have h3 : idx_main_v70 (idx_main_v71 (ix2 r q)) = ix1 q :=
    funext fun a => Fin.ext (by match a with | ⟨0, _⟩ => rfl)
  have h4 : idx_main_v73 (idx_main_v74 (ix2 r q)) = ix1 q :=
    funext fun a => Fin.ext (by match a with | ⟨0, _⟩ => rfl)
  rw [h3, h4]
  simp only [Ideal.addf_def, Ideal.mulf_def, Ideal.subf_def, Ideal.hostUnary_rsqrt_def, Ideal.ofBits_def]
  rfl

/-- The reverse rectified layer at `(r, q)`, with the reverse weights and bias. -/
theorem sage_rev_at (x0 : FVec Ideal S100000x128 .f32) (x1 x2 : IVec S640000 32) (x8 x9 : FVec Ideal S128 .f32)
    (x10 x11 : FVec Ideal S128x128 .f32) (x12 : FVec Ideal S128 .f32) (r : Fin 100000) (q : Fin 128) :
    val_main_v103 (F := Ideal) x0 x1 x2 x8 x9 x10 x11 x12 (ix2 r q)
      = Spec.sage (fun k => val_main_v75 (F := Ideal) x0 x8 x9 (ix2 r k))
          (fun k => val_main_v94 (F := Ideal) x0 x1 x2 x8 x9 (ix2 r k))
          (fun k => x10 (ix2 q k)) (fun k => x11 (ix2 q k)) (x12 (ix1 q)) := by
  rw [val_main_v103_apply, val_main_v102_apply, val_main_v99_apply, val_main_v96_apply, val_main_v98_apply,
    val_main_v101_apply, val_main_v100_apply, val_main_call1_v0_apply, val_main_call1_cst_apply]
  generalize val_main_v75 (F := Ideal) x0 x8 x9 = hf
  generalize val_main_v94 (F := Ideal) x0 x1 x2 x8 x9 = nf
  simp only [Ideal.maximumf_def, Ideal.addf_def, Ideal.ofBits_def]
  unfold Spec.sage Spec.zero
  refine congrArg₂ max (congrArg₂ (· + ·) (congrArg₂ (· + ·) (Finset.sum_congr rfl fun k _ => ?_)
    (Finset.sum_congr rfl fun k _ => ?_)) (congrArg x12 ?_)) rfl
  · rw [val_main_v95_apply]
    exact congrArg₂ (· * ·)
      (congrArg hf (funext fun a => Fin.ext (by match a with | ⟨0, _⟩ => rfl | ⟨1, _⟩ => rfl)))
      (congrArg x10 (funext fun a => Fin.ext (by match a with | ⟨0, _⟩ => rfl | ⟨1, _⟩ => rfl)))
  · rw [val_main_v97_apply]
    exact congrArg₂ (· * ·)
      (congrArg nf (funext fun a => Fin.ext (by match a with | ⟨0, _⟩ => rfl | ⟨1, _⟩ => rfl)))
      (congrArg x11 (funext fun a => Fin.ext (by match a with | ⟨0, _⟩ => rfl | ⟨1, _⟩ => rfl)))
  · exact funext fun a => Fin.ext (by match a with | ⟨0, _⟩ => rfl)

/-- The forward neighbourhood mean is the chain applied to the forward normalised array, gathered by the first index
    vector and scattered by the second. -/
theorem neigh_fwd (x0 : FVec F S100000x128 .f32) (x1 x2 : IVec S640000 32) (x3 x4 : FVec F S128 .f32) :
    val_main_v42 (F := F) x0 x1 x2 x3 x4 = neighMean (val_main_v23 (F := F) x0 x3 x4) x1 x2 := by
  unfold val_main_v42 val_main_v41 val_main_v40 val_main_v39 val_main_v38 val_main_v37 val_main_v36 val_main_v35
    val_main_v34 val_main_v33 val_main_v32 val_main_v31 val_main_v30 val_main_v29 val_main_v28 val_main_v27
    val_main_v26 val_main_v25 val_main_v24 val_main_cst_8 val_main_cst_7 val_main_cst_6 val_main_cst_5
    val_main_c_4 val_main_c neighMean
  rfl

/-- The reverse one: the reverse normalised array, the two index vectors exchanged. -/
theorem neigh_rev (x0 : FVec F S100000x128 .f32) (x1 x2 : IVec S640000 32) (x8 x9 : FVec F S128 .f32) :
    val_main_v94 (F := F) x0 x1 x2 x8 x9 = neighMean (val_main_v75 (F := F) x0 x8 x9) x2 x1 := by
  unfold val_main_v94 val_main_v93 val_main_v92 val_main_v91 val_main_v90 val_main_v89 val_main_v88 val_main_v87
    val_main_v86 val_main_v85 val_main_v84 val_main_v83 val_main_v82 val_main_v81 val_main_v80 val_main_v79
    val_main_v78 val_main_v77 val_main_v76 val_main_cst_19 val_main_cst_18 val_main_cst_17 val_main_cst_16
    val_main_c_15 val_main_c_14 neighMean
  rfl

/-- The forward normalised array is the row-wise normalisation with the first scale and shift. -/
theorem ln_fwd (x0 : FVec Ideal S100000x128 .f32) (x3 x4 : FVec Ideal S128 .f32) :
    val_main_v23 (F := Ideal) x0 x3 x4 = Spec.layerNorm x0 (fun q => x3 (ix1 q)) (fun q => x4 (ix1 q)) := by
  funext i
  obtain ⟨r, q, rfl⟩ : ∃ (r : Fin 100000) (q : Fin 128), i = ix2 r q := ⟨i 0, i 1, eq_ix2 i⟩
  exact (ln_at x0 x3 x4 r q).trans (Spec.layerNorm_ix2 x0 _ _ r q).symm

/-- The reverse normalised array likewise, with the second scale and shift. -/
theorem ln_rev (x0 : FVec Ideal S100000x128 .f32) (x8 x9 : FVec Ideal S128 .f32) :
    val_main_v75 (F := Ideal) x0 x8 x9 = Spec.layerNorm x0 (fun q => x8 (ix1 q)) (fun q => x9 (ix1 q)) := by
  funext i
  obtain ⟨r, q, rfl⟩ : ∃ (r : Fin 100000) (q : Fin 128), i = ix2 r q := ⟨i 0, i 1, eq_ix2 i⟩
  exact (ln_rev_at x0 x8 x9 r q).trans (Spec.layerNorm_ix2 x0 _ _ r q).symm

/-- The reference's result is the specification's result array of the input, the four node arrays and the parameters. -/
theorem result (x0 : FVec Ideal S100000x128 .f32) (x1 x2 : IVec S640000 32) (x3 x4 : FVec Ideal S128 .f32)
    (x5 x6 : FVec Ideal S128x128 .f32) (x7 x8 x9 : FVec Ideal S128 .f32) (x10 x11 : FVec Ideal S128x128 .f32)
    (x12 : FVec Ideal S128 .f32) :
    val_main_v105 (F := Ideal) x0 x1 x2 x3 x4 x5 x6 x7 x8 x9 x10 x11 x12
      = Spec.out x0 (val_main_v23 (F := Ideal) x0 x3 x4) (val_main_v42 (F := Ideal) x0 x1 x2 x3 x4)
          (val_main_v75 (F := Ideal) x0 x8 x9) (val_main_v94 (F := Ideal) x0 x1 x2 x8 x9)
          (fun q k => x5 (ix2 q k)) (fun q k => x6 (ix2 q k)) (fun q k => x10 (ix2 q k)) (fun q k => x11 (ix2 q k))
          (fun q => x7 (ix1 q)) (fun q => x12 (ix1 q)) := by
  funext i
  obtain ⟨r, q, rfl⟩ : ∃ (r : Fin 100000) (q : Fin 128), i = ix2 r q := ⟨i 0, i 1, eq_ix2 i⟩
  rw [Spec.out_ix2, val_main_v105_apply, val_main_v104_apply, sage_fwd_at, sage_rev_at]
  simp only [Ideal.addf_def]
  exact Spec.outAt_assoc x0 (val_main_v23 (F := Ideal) x0 x3 x4) (val_main_v42 (F := Ideal) x0 x1 x2 x3 x4)
    (val_main_v75 (F := Ideal) x0 x8 x9) (val_main_v94 (F := Ideal) x0 x1 x2 x8 x9)
    (fun q k => x5 (ix2 q k)) (fun q k => x6 (ix2 q k)) (fun q k => x10 (ix2 q k)) (fun q k => x11 (ix2 q k))
    (fun q => x7 (ix1 q)) (fun q => x12 (ix1 q)) r q

end Cert.ReferenceIdeal.RefValue

end
-- ==== Proof.lean ====
/-
  The certificate: a kernel program of two pipelined regions (a pair of row-wise normalisations; two linear layers with
  rectifier added to the input) around a host stretch (gather by one index vector, scatter-add by the other, division by
  the clamped in-degree), against a reference that does all of it on the host.

  Frames. The kernel program's two frames are the generated ones; the reference's is its generated run with the result
  dropped. The idealization rewrote nothing, so `preserves` is `True`.

  Values. At the extended reals a change of float format is the identity, a matrix product into a zero accumulator and the
  host's contraction are the same finite sum (the kernel contracts the weight's second axis, the reference transposes the
  weight and contracts its first), a lane reduction and the host's reduction from 0 are the same sum, and the
  neighbourhood mean is the same chain of host operations in both programs, applied to equal arrays. The one difference
  left is the grouping of the last two additions, (x + a) + b against x + (a + b): equal, addition of extended reals being
  associative. No step needs an entry to be finite, so the precondition is not opened.
-/
import proofs.«119950_j31138512896530_1_alg».proof.Defs
import proofs.«119950_j31138512896530_1_alg».proof.Proof.Gen.Kernel
import proofs.«119950_j31138512896530_1_alg».proof.Proof.Gen.Kernel.Skeleton
import proofs.«119950_j31138512896530_1_alg».proof.Proof.Gen.Kernel.Launch
import proofs.«119950_j31138512896530_1_alg».proof.Proof.Gen.Kernel.Points
import proofs.«119950_j31138512896530_1_alg».proof.Proof.Gen.Kernel.Frame
import proofs.«119950_j31138512896530_1_alg».proof.Proof.Gen.KernelIdeal
import proofs.«119950_j31138512896530_1_alg».proof.Proof.Gen.KernelIdeal.Skeleton
import proofs.«119950_j31138512896530_1_alg».proof.Proof.Gen.KernelIdeal.Launch
import proofs.«119950_j31138512896530_1_alg».proof.Proof.Gen.KernelIdeal.Points
import proofs.«119950_j31138512896530_1_alg».proof.Proof.Gen.KernelIdeal.Frame
import proofs.«119950_j31138512896530_1_alg».proof.Proof.Gen.ReferenceIdeal
import proofs.«119950_j31138512896530_1_alg».proof.Proof.Gen.Pre_finite_inputs
import proofs.«119950_j31138512896530_1_alg».proof.Proof.Gen.ReferenceIdeal.Run
import proofs.«119950_j31138512896530_1_alg».proof.Proof.Gen.ReferenceIdeal.Read
import proofs.«119950_j31138512896530_1_alg».proof.Proof.Result
import proofs.«119950_j31138512896530_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The neighbourhood-mean chain of the reference and that of the kernel program are one function: the same host
    operations over the same dimension records. -/
theorem neighMean_eq (h : FVec Ideal Cert.KernelIdeal.S100000x128 .f32) (gi si : IVec Cert.KernelIdeal.S640000 32) :
    Cert.ReferenceIdeal.RefValue.neighMean (F := Ideal) h gi si = Cert.KernelIdeal.Fold.neighMean (F := Ideal) h gi si := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at the kernel program's `value` of the (agreeing) arguments. -/
theorem algebraic : Cert.algebraic_KernelIdeal_ReferenceIdeal := by
  intro m ρ m' ρ' _ hagree
  refine ⟨fun c => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v105_eq, h0, h1, h2, h3, h4, h5, h6, h7, h8, h9, h10, h11, h12]
  rw [Cert.ReferenceIdeal.RefValue.result, Cert.ReferenceIdeal.RefValue.neigh_fwd, Cert.ReferenceIdeal.RefValue.neigh_rev,
    Cert.ReferenceIdeal.RefValue.ln_fwd, Cert.ReferenceIdeal.RefValue.ln_rev, neighMean_eq, neighMean_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
